-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v17) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x512x1024 : Shape := ⟨3, ![32, 512, 1024]⟩
abbrev S32 : Shape := ⟨1, ![32]⟩
abbrev S64x512x512 : Shape := ⟨3, ![64, 512, 512]⟩
abbrev S64x512 : Shape := ⟨2, ![64, 512]⟩
abbrev S_ : Shape := ⟨0, ![]⟩

class Facts : Prop where
  bcast_S_S32x512x1024 : S_.BroadcastsInDim S32x512x1024 (![] : Fin 0 → Fin S32x512x1024.rank)
  reducesTo_S32x512x1024_S_d0_1_2 : S32x512x1024.ReducesTo [0, 1, 2] S_
  h_S_ : 0 < S_.numel
  bcast_S_S64x512x512 : S_.BroadcastsInDim S64x512x512 (![] : Fin 0 → Fin S64x512x512.rank)
  reducesTo_S64x512x512_S_d0_1_2 : S64x512x512.ReducesTo [0, 1, 2] S_
  bcast_S_S64x512 : S_.BroadcastsInDim S64x512 (![] : Fin 0 → Fin S64x512.rank)
  reducesTo_S64x512_S_d0_1 : S64x512.ReducesTo [0, 1] S_
  bcast_S_S32 : S_.BroadcastsInDim S32 (![] : Fin 0 → Fin S32.rank)
  reducesTo_S32_S_d0 : S32.ReducesTo [0] S_

variable [Facts]

def fn_part1 {F : FTy → Type} [FloatOps F] (main_arg1 : IVec S32 32) (main_v13 : IVec S_ 1) (main_v15 : IVec S32 1) (main_c_5 : IVec S_ 1) : IVec S_ 1 :=
  let main_v16 : IVec S_ 1 := (fun x v => Host.reduce IntOp.andi x v reducesTo_S32_S_d0 h_S_) main_v15 main_c_5
  let main_v17 : IVec S_ 1 := andi main_v13 main_v16
  let main_c_6 : IVec S_ 32 := constantI S_ 32 64#32
  let main_v18 : IVec S32 32 := broadcastInDim S32 ![] bcast_S_S32 main_c_6
  let main_v19 : IVec S32 1 := cmpi .slt main_arg1 main_v18
  let main_c_7 : IVec S_ 1 := constantI S_ 1 1#1
  let main_v20 : IVec S_ 1 := (fun x v => Host.reduce IntOp.andi x v reducesTo_S32_S_d0 h_S_) main_v19 main_c_7
  let main_v21 : IVec S_ 1 := andi main_v17 main_v20
  main_v21

def fn {F : FTy → Type} [FloatOps F] (main_arg0 : FVec F S32x512x1024 .f32) (main_arg1 : IVec S32 32) (main_arg2 : FVec F S64x512x512 .f32) (main_arg3 : FVec F S64x512 .f32) : IVec S_ 1 :=
  let main_v0 : FVec F S32x512x1024 .f32 := Host.absf main_arg0
  let main_cst : FVec F S_ .f32 := constant S_ .f32 0x7F800000#32
  let main_v1 : FVec F S32x512x1024 .f32 := broadcastInDim S32x512x1024 ![] bcast_S_S32x512x1024 main_cst
  let main_v2 : IVec S32x512x1024 1 := cmpf .olt main_v0 main_v1
  let main_c : IVec S_ 1 := constantI S_ 1 1#1
  let main_v3 : IVec S_ 1 := (fun x v => Host.reduce IntOp.andi x v reducesTo_S32x512x1024_S_d0_1_2 h_S_) main_v2 main_c
  let main_v4 : FVec F S64x512x512 .f32 := Host.absf main_arg2
  let main_cst_0 : FVec F S_ .f32 := constant S_ .f32 0x7F800000#32
  let main_v5 : FVec F S64x512x512 .f32 := broadcastInDim S64x512x512 ![] bcast_S_S64x512x512 main_cst_0
  let main_v6 : IVec S64x512x512 1 := cmpf .olt main_v4 main_v5
  let main_c_1 : IVec S_ 1 := constantI S_ 1 1#1
  let main_v7 : IVec S_ 1 := (fun x v => Host.reduce IntOp.andi x v reducesTo_S64x512x512_S_d0_1_2 h_S_) main_v6 main_c_1
  let main_v8 : IVec S_ 1 := andi main_v3 main_v7
  let main_v9 : FVec F S64x512 .f32 := Host.absf main_arg3
  let main_cst_2 : FVec F S_ .f32 := constant S_ .f32 0x7F800000#32
  let main_v10 : FVec F S64x512 .f32 := broadcastInDim S64x512 ![] bcast_S_S64x512 main_cst_2
  let main_v11 : IVec S64x512 1 := cmpf .olt main_v9 main_v10
  let main_c_3 : IVec S_ 1 := constantI S_ 1 1#1
  let main_v12 : IVec S_ 1 := (fun x v => Host.reduce IntOp.andi x v reducesTo_S64x512_S_d0_1 h_S_) main_v11 main_c_3
  let main_v13 : IVec S_ 1 := andi main_v8 main_v12
  let main_c_4 : IVec S_ 32 := constantI S_ 32 0#32
  let main_v14 : IVec S32 32 := broadcastInDim S32 ![] bcast_S_S32 main_c_4
  let main_v15 : IVec S32 1 := cmpi .sge main_arg1 main_v14
  let main_c_5 : IVec S_ 1 := constantI S_ 1 1#1
  fn_part1 (F := F) main_arg1 main_v13 main_v15 main_c_5
-- ==== Kernel.lean ====
abbrev S32x512x1024 : Shape := ⟨3, ![32, 512, 1024]⟩
abbrev S32 : Shape := ⟨1, ![32]⟩
abbrev S64x512x512 : Shape := ⟨3, ![64, 512, 512]⟩
abbrev S64x512 : Shape := ⟨2, ![64, 512]⟩
abbrev S_ : Shape := ⟨0, ![]⟩
abbrev S32x1 : Shape := ⟨2, ![32, 1]⟩
abbrev S1 : Shape := ⟨1, ![1]⟩
abbrev S1x1 : Shape := ⟨2, ![1, 1]⟩
abbrev S64x512x1 : Shape := ⟨3, ![64, 512, 1]⟩
abbrev S1x512x1024 : Shape := ⟨3, ![1, 512, 1024]⟩
abbrev S1x512x512 : Shape := ⟨3, ![1, 512, 512]⟩
abbrev S1x512x1 : Shape := ⟨3, ![1, 512, 1]⟩
abbrev S512x1024 : Shape := ⟨2, ![512, 1024]⟩
abbrev S512x512 : Shape := ⟨2, ![512, 512]⟩
abbrev S512x1 : Shape := ⟨2, ![512, 1]⟩

abbrev nBuf : Space → Nat
  | .hbm => 37
  | .vmem => 8
  | .smem => 2
  | _ => 0

abbrev bufTy : (tb : Table) → Fin (tcTables nBuf tb) → BufTy
  | .hbm, ⟨0, _⟩ => ⟨S32x512x1024, .f32⟩
  | .hbm, ⟨1, _⟩ => ⟨S32, .i32⟩
  | .hbm, ⟨2, _⟩ => ⟨S64x512x512, .f32⟩
  | .hbm, ⟨3, _⟩ => ⟨S64x512, .f32⟩
  | .hbm, ⟨4, _⟩ => ⟨S_, .i32⟩
  | .hbm, ⟨5, _⟩ => ⟨S_, .i32⟩
  | .hbm, ⟨6, _⟩ => ⟨S_, .i32⟩
  | .hbm, ⟨7, _⟩ => ⟨S32, .i32⟩
  | .hbm, ⟨8, _⟩ => ⟨S32, .i32⟩
  | .hbm, ⟨9, _⟩ => ⟨S_, .i32⟩
  | .hbm, ⟨10, _⟩ => ⟨S32, .i32⟩
  | .hbm, ⟨11, _⟩ => ⟨S32, .i32⟩
  | .hbm, ⟨12, _⟩ => ⟨S32, .i32⟩
  | .hbm, ⟨13, _⟩ => ⟨S32, .i32⟩
  | .hbm, ⟨14, _⟩ => ⟨S_, .i32⟩
  | .hbm, ⟨15, _⟩ => ⟨S32, .i32⟩
  | .hbm, ⟨16, _⟩ => ⟨S32, .i1⟩
  | .hbm, ⟨17, _⟩ => ⟨S_, .i32⟩
  | .hbm, ⟨18, _⟩ => ⟨S32, .i32⟩
  | .hbm, ⟨19, _⟩ => ⟨S32, .i32⟩
  | .hbm, ⟨20, _⟩ => ⟨S32, .i32⟩
  | .hbm, ⟨21, _⟩ => ⟨S32x1, .i32⟩
  | .hbm, ⟨22, _⟩ => ⟨S1, .i32⟩
  | .hbm, ⟨23, _⟩ => ⟨S_, .i32⟩
  | .hbm, ⟨24, _⟩ => ⟨S32x1, .i32⟩
  | .hbm, ⟨25, _⟩ => ⟨S32x1, .i1⟩
  | .hbm, ⟨26, _⟩ => ⟨S1x1, .i32⟩
  | .hbm, ⟨27, _⟩ => ⟨S32x1, .i32⟩
  | .hbm, ⟨28, _⟩ => ⟨S32x1, .i1⟩
  | .hbm, ⟨29, _⟩ => ⟨S32x1, .i1⟩
  | .hbm, ⟨30, _⟩ => ⟨S_, .i1⟩
  | .hbm, ⟨31, _⟩ => ⟨S32, .i1⟩
  | .hbm, ⟨32, _⟩ => ⟨S32, .i32⟩
  | .hbm, ⟨33, _⟩ => ⟨S_, .i32⟩
  | .hbm, ⟨34, _⟩ => ⟨S32, .i32⟩
  | .hbm, ⟨35, _⟩ => ⟨S64x512x1, .f32⟩
  | .hbm, ⟨36, _⟩ => ⟨S32x512x1024, .f32⟩
  | .local _ .vmem, ⟨0, _⟩ => ⟨S1x512x1024, .f32⟩
  | .local _ .vmem, ⟨1, _⟩ => ⟨S1x512x1024, .f32⟩
  | .local _ .vmem, ⟨2, _⟩ => ⟨S1x512x512, .f32⟩
  | .local _ .vmem, ⟨3, _⟩ => ⟨S1x512x512, .f32⟩
  | .local _ .vmem, ⟨4, _⟩ => ⟨S1x512x1, .f32⟩
  | .local _ .vmem, ⟨5, _⟩ => ⟨S1x512x1, .f32⟩
  | .local _ .vmem, ⟨6, _⟩ => ⟨S1x512x1024, .f32⟩
  | .local _ .vmem, ⟨7, _⟩ => ⟨S1x512x1024, .f32⟩
  | .local _ .smem, ⟨0, _⟩ => ⟨S32, .i32⟩
  | .local _ .smem, ⟨1, _⟩ => ⟨S32, .i32⟩
  | _, _ => ⟨S32x512x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_c_0 : Ref sig .tc := ⟨.hbm, 5, rfl⟩
abbrev main_call0_v0 : Ref sig .tc := ⟨.hbm, 6, rfl⟩
abbrev main_call0_v1 : Ref sig .tc := ⟨.hbm, 7, rfl⟩
abbrev main_call0_v2 : Ref sig .tc := ⟨.hbm, 8, rfl⟩
abbrev main_call0_v3 : Ref sig .tc := ⟨.hbm, 9, rfl⟩
abbrev main_call0_v4 : Ref sig .tc := ⟨.hbm, 10, rfl⟩
abbrev main_v0 : Ref sig .tc := ⟨.hbm, 11, rfl⟩
abbrev main_call1_v0 : Ref sig .tc := ⟨.hbm, 12, rfl⟩
abbrev main_call1_v1_0 : Ref sig .tc := ⟨.hbm, 13, rfl⟩
abbrev main_call2_c : Ref sig .tc := ⟨.hbm, 14, rfl⟩
abbrev main_call2_v0 : Ref sig .tc := ⟨.hbm, 15, rfl⟩
abbrev main_call2_v1 : Ref sig .tc := ⟨.hbm, 16, rfl⟩
abbrev main_call2_c_0 : Ref sig .tc := ⟨.hbm, 17, rfl⟩
abbrev main_call2_v2 : Ref sig .tc := ⟨.hbm, 18, rfl⟩
abbrev main_call2_v3 : Ref sig .tc := ⟨.hbm, 19, rfl⟩
abbrev main_call2_v4 : Ref sig .tc := ⟨.hbm, 20, rfl⟩
abbrev main_call2_v5 : Ref sig .tc := ⟨.hbm, 21, rfl⟩
abbrev main_call2_c_1 : Ref sig .tc := ⟨.hbm, 22, rfl⟩
abbrev main_call2_c_2 : Ref sig .tc := ⟨.hbm, 23, rfl⟩
abbrev main_call2_v6 : Ref sig .tc := ⟨.hbm, 24, rfl⟩
abbrev main_call2_v7 : Ref sig .tc := ⟨.hbm, 25, rfl⟩
abbrev main_call2_v8 : Ref sig .tc := ⟨.hbm, 26, rfl⟩
abbrev main_call2_v9 : Ref sig .tc := ⟨.hbm, 27, rfl⟩
abbrev main_call2_v10 : Ref sig .tc := ⟨.hbm, 28, rfl⟩
abbrev main_call2_v11 : Ref sig .tc := ⟨.hbm, 29, rfl⟩
abbrev main_call2_c_3 : Ref sig .tc := ⟨.hbm, 30, rfl⟩
abbrev main_call2_v12 : Ref sig .tc := ⟨.hbm, 31, rfl⟩
abbrev main_call2_v13 : Ref sig .tc := ⟨.hbm, 32, rfl⟩
abbrev main_call2_c_4 : Ref sig .tc := ⟨.hbm, 33, rfl⟩
abbrev main_call2_v14 : Ref sig .tc := ⟨.hbm, 34, rfl⟩
abbrev main_v3 : Ref sig .tc := ⟨.hbm, 35, rfl⟩
abbrev main_v4 : Ref sig .tc := ⟨.hbm, 36, rfl⟩
abbrev main_v2 : Ref sig .tc := ⟨.smem, 0, rfl⟩
abbrev main_v1 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![32], ![false]⟩

abbrev pre0 : Pipeline.Prefetch sig := ⟨2, ![main_v2.idx, main_v1.idx], fun | 0 => main_v2.names | 1 => main_v1.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def cc0_transform_0 (k0_off1_inb : ∀ i : grid0.Coords, ∀ a, (k0_off1 i) a + S1.size a ≤ S32.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 1 (Rect.unit (s := S32) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_1 (k0_off1_inb : ∀ i : grid0.Coords, ∀ a, (k0_off1 i) a + S1.size a ≤ S32.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S32) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_2 (k0_off1_inb : ∀ i : grid0.Coords, ∀ a, (k0_off1 i) a + S1.size a ≤ S32.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S32) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_3 (k0_off1_inb : ∀ i : grid0.Coords, ∀ a, (k0_off1 i) a + S1.size a ≤ S32.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 1 (Rect.unit (s := S32) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x512x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  bcast_S_S32 : S_.BroadcastsInDim S32 (![] : Fin 0 → Fin S32.rank)
  bcast_S32_S32x1_0 : S32.BroadcastsInDim S32x1 (![0] : Fin 1 → Fin S32x1.rank)
  bcast_S_S32x1 : S_.BroadcastsInDim S32x1 (![] : Fin 0 → Fin S32x1.rank)
  bcast_S1_S1x1_1 : S1.BroadcastsInDim S1x1 (![1] : Fin 1 → Fin S1x1.rank)
  bcast_S1x1_S32x1_0_1 : S1x1.BroadcastsInDim S32x1 (![0, 1] : Fin 2 → Fin S32x1.rank)
  reducesTo_S32x1_S32_d1 : S32x1.ReducesTo [1] S32
  h_S_ : 0 < S_.numel
  bcast_S64x512_S64x512x1_0_1 : S64x512.BroadcastsInDim S64x512x1 (![0, 1] : Fin 2 → Fin S64x512x1.rank)
  numel1_S1 : S1.numel = 1
  inb_S1x512x1024_S1x512x1024_0_0_0 : ∀ a, (![0, 0, 0] : Fin 3 → Nat) a + S1x512x1024.size a ≤ S1x512x1024.size a
  h_S1x512x1024 : 0 < S1x512x1024.numel
  shapeCasts_S1x512x1024_S512x1024 : S1x512x1024.ShapeCasts S512x1024
  bitsLt_bf16_f32 : FTy.bits .bf16 < FTy.bits .f32
  inb_S1x512x512_S1x512x512_0_0_0 : ∀ a, (![0, 0, 0] : Fin 3 → Nat) a + S1x512x512.size a ≤ S1x512x512.size a
  h_S1x512x512 : 0 < S1x512x512.numel
  shapeCasts_S1x512x512_S512x512 : S1x512x512.ShapeCasts S512x512
  inb_S1x512x1_S1x512x1_0_0_0 : ∀ a, (![0, 0, 0] : Fin 3 → Nat) a + S1x512x1.size a ≤ S1x512x1.size a
  h_S1x512x1 : 0 < S1x512x1.numel
  shapeCasts_S1x512x1_S512x1 : S1x512x1.ShapeCasts S512x1
  broadcasts_S512x1_S512x1024 : S512x1.Broadcasts S512x1024
  shapeCasts_S512x1024_S1x512x1024 : S512x1024.ShapeCasts S1x512x1024
  gather_S32_S32x1_S32_n_0_n_n_0_1_1_wf : GatherDims.WF S32 S32x1 S32 [] [0] [] [0] [] 1 ![1]
  dot_S512x512_S512x1024_S512x1024_0_0_1_1_n_n_wf : DotDims.WF S512x512 S512x1024 S512x1024 [0] [0] [1] [1] [] []
  hrank0 : 0 < grid0.rank
  k0_off1_inb : ∀ i : grid0.Coords, ∀ a, (k0_off1 i) a + S1.size a ≤ S32.size a
  hstage0_0 : ∀ j, (stage0_0 j).IsWhole
  nbuf0_0 : grid0.bufCount reads0_0 false = 2
  hreads0_0 : ∀ {F : FTy → Type} [FloatOps F] (pf : pre0.Contents (Elt F)) (i i' : grid0.Coords), (∀ a, reads0_0 a = true → i a = i' a) → cc0_transform_0 k0_off1_inb numel1_S1 pf i = cc0_transform_0 k0_off1_inb numel1_S1 pf i'
  hstage0_1 : ∀ j, (stage0_1 j).IsWhole
  nbuf0_1 : grid0.bufCount reads0_1 false = 2
  hreads0_1 : ∀ {F : FTy → Type} [FloatOps F] (pf : pre0.Contents (Elt F)) (i i' : grid0.Coords), (∀ a, reads0_1 a = true → i a = i' a) → cc0_transform_1 k0_off1_inb numel1_S1 pf i = cc0_transform_1 k0_off1_inb numel1_S1 pf i'
  hstage0_2 : ∀ j, (stage0_2 j).IsWhole
  nbuf0_2 : grid0.bufCount reads0_2 false = 2
  hreads0_2 : ∀ {F : FTy → Type} [FloatOps F] (pf : pre0.Contents (Elt F)) (i i' : grid0.Coords), (∀ a, reads0_2 a = true → i a = i' a) → cc0_transform_2 k0_off1_inb numel1_S1 pf i = cc0_transform_2 k0_off1_inb numel1_S1 pf i'
  hstage0_3 : ∀ j, (stage0_3 j).IsWhole
  nbuf0_3 : grid0.bufCount reads0_3 false = 2
  hreads0_3 : ∀ {F : FTy → Type} [FloatOps F] (pf : pre0.Contents (Elt F)) (i i' : grid0.Coords), (∀ a, reads0_3 a = true → i a = i' a) → cc0_transform_3 k0_off1_inb numel1_S1 pf i = cc0_transform_3 k0_off1_inb numel1_S1 pf i'

variable [Facts₀]

def comparator_i32_i32_d0 : BitVec 32 × BitVec 32 → BitVec 32 × BitVec 32 → BitVec 1 :=
  fun l r =>
    let v2 := IntOp.cmpi .slt l.1 r.1
    v2
def gather_S32_S32x1_S32_n_0_n_n_0_1_1 : GatherDims S32 S32x1 S32 where
  offsetDims := []
  collapsedSliceDims := [0]
  operandBatchingDims := []
  startIndicesBatchingDims := []
  startIndexMap := [0]
  indexVectorDim := 1
  sliceSizes := ![1]
  wf := gather_S32_S32x1_S32_n_0_n_n_0_1_1_wf
def dot_S512x512_S512x1024_S512x1024_0_0_1_1_n_n : DotDims S512x512 S512x1024 S512x1024 where
  lhsContracting := [0]
  rhsContracting := [0]
  lhsNonContracting := [1]
  rhsNonContracting := [1]
  lhsBatch := []
  rhsBatch := []
  wf := dot_S512x512_S512x1024_S512x1024_0_0_1_1_n_n_wf

abbrev spec0_0 : Pipeline.WinSpec sig grid0.rank :=
  Pipeline.WinSpec.ofSpec (Memref.whole main_arg0) S1x512x1024.size reads0_0 false false 2 stage0_0 sem0_0 nbuf0_0 hstage0_0

abbrev spec0_1 : Pipeline.WinSpec sig grid0.rank :=
  Pipeline.WinSpec.ofSpec (Memref.whole main_arg2) S1x512x512.size reads0_1 false false 2 stage0_1 sem0_1 nbuf0_1 hstage0_1

abbrev spec0_2 : Pipeline.WinSpec sig grid0.rank :=
  Pipeline.WinSpec.ofSpec (Memref.whole main_v3) S1x512x1.size reads0_2 false false 2 stage0_2 sem0_2 nbuf0_2 hstage0_2

abbrev spec0_3 : Pipeline.WinSpec sig grid0.rank :=
  Pipeline.WinSpec.ofSpec (Memref.whole main_v4) S1x512x1024.size reads0_3 true false 2 stage0_3 sem0_3 nbuf0_3 hstage0_3

abbrev spec0 : Fin 4 → Pipeline.WinSpec sig grid0.rank := fun | 0 => spec0_0 | 1 => spec0_1 | 2 => spec0_2 | 3 => spec0_3 | ⟨_ + 4, h⟩ => absurd h (Nat.not_lt.2 (Nat.le_add_left _ _))
theorem hcount0 : ∀ w, grid0.bufCount (spec0 w).reads (spec0 w).sync = (spec0 w).nbuf := fun | 0 => nbuf0_0 | 1 => nbuf0_1 | 2 => nbuf0_2 | 3 => nbuf0_3 | ⟨_ + 4, h⟩ => absurd h (Nat.not_lt.2 (Nat.le_add_left _ _))
abbrev ix0 (pf : pre0.Contents (Elt F)) : (w : Fin 4) → grid0.Coords → Fin (spec0 w).shape.rank → Nat := fun | 0 => cc0_transform_0 k0_off1_inb numel1_S1 pf | 1 => cc0_transform_1 k0_off1_inb numel1_S1 pf | 2 => cc0_transform_2 k0_off1_inb numel1_S1 pf | 3 => cc0_transform_3 k0_off1_inb numel1_S1 pf | ⟨_ + 4, h⟩ => absurd h (Nat.not_lt.2 (Nat.le_add_left _ _))
theorem hreads0 : ∀ (pf : pre0.Contents (Elt F)) w (i i' : grid0.Coords), (∀ a, (spec0 w).reads a = true → i a = i' a) → ix0 pf w i = ix0 pf w i' := fun pf => fun | 0 => hreads0_0 pf | 1 => hreads0_1 pf | 2 => hreads0_2 pf | 3 => hreads0_3 pf | ⟨_ + 4, h⟩ => absurd h (Nat.not_lt.2 (Nat.le_add_left _ _))
def ok0 (pf : pre0.Contents (Elt F)) : Prop :=
  (∀ i : grid0.Coords, ∃ h : (∀ a, (cc0_transform_0 k0_off1_inb numel1_S1 pf i a + 1) * S1x512x1024.size a ≤ S32x512x1024.size a), EltTy.bits .f32 = 32 ∨ (Rect.block (s := S32x512x1024) S1x512x1024.size (cc0_transform_0 k0_off1_inb numel1_S1 pf i) h).WholeWords (EltTy.packing .f32)) ∧
  (∀ i : grid0.Coords, ∃ h : (∀ a, (cc0_transform_1 k0_off1_inb numel1_S1 pf i a + 1) * S1x512x512.size a ≤ S64x512x512.size a), EltTy.bits .f32 = 32 ∨ (Rect.block (s := S64x512x512) S1x512x512.size (cc0_transform_1 k0_off1_inb numel1_S1 pf i) h).WholeWords (EltTy.packing .f32)) ∧
  (∀ i : grid0.Coords, ∃ h : (∀ a, (cc0_transform_2 k0_off1_inb numel1_S1 pf i a + 1) * S1x512x1.size a ≤ S64x512x1.size a), EltTy.bits .f32 = 32 ∨ (Rect.block (s := S64x512x1) S1x512x1.size (cc0_transform_2 k0_off1_inb numel1_S1 pf i) h).WholeWords (EltTy.packing .f32)) ∧
  (∀ i : grid0.Coords, ∃ h : (∀ a, (cc0_transform_3 k0_off1_inb numel1_S1 pf i a + 1) * S1x512x1024.size a ≤ S32x512x1024.size a), EltTy.bits .f32 = 32 ∨ (Rect.block (s := S32x512x1024) S1x512x1024.size (cc0_transform_3 k0_off1_inb numel1_S1 pf i) h).WholeWords (EltTy.packing .f32))
instance (pf : pre0.Contents (Elt F)) : Decidable (ok0 pf) := decidable_of_iff' _ (Iff.of_eq (ok0.eq_1 pf))
theorem hinb0 : ∀ (pf : pre0.Contents (Elt F)), ok0 pf → ∀ w (i : grid0.Coords) a, (ix0 pf w i a + 1) * (spec0 w).size a ≤ (spec0 w).shape.size a :=
  fun pf hok => fun | 0 => fun i a => (hok.1 i).elim fun h _ => h a | 1 => fun i a => (hok.2.1 i).elim fun h _ => h a | 2 => fun i a => (hok.2.2.1 i).elim fun h _ => h a | 3 => fun i a => (hok.2.2.2 i).elim fun h _ => h a | ⟨_ + 4, h⟩ => absurd h (Nat.not_lt.2 (Nat.le_add_left _ _))
theorem hwx0 : ∀ (pf : pre0.Contents (Elt F)) (hok : ok0 pf) w (i : grid0.Coords), (spec0 w).elt.bits = 32 ∨ (Rect.block (spec0 w).size (ix0 pf w i) (hinb0 pf hok w i)).WholeWords (spec0 w).elt.packing :=
  fun pf hok => fun | 0 => fun i => (hok.1 i).elim fun _ h => h | 1 => fun i => (hok.2.1 i).elim fun _ h => h | 2 => fun i => (hok.2.2.1 i).elim fun _ h => h | 3 => fun i => (hok.2.2.2 i).elim fun _ h => h | ⟨_ + 4, h⟩ => absurd h (Nat.not_lt.2 (Nat.le_add_left _ _))

class Facts : Prop extends Facts₀ where
  harr0 : ∀ w, (spec0 w).arr.IsWhole

variable [Facts]
-- ==== ReferenceIdeal.lean ====
abbrev S32x512x1024 : Shape := ⟨3, ![32, 512, 1024]⟩
abbrev S32 : Shape := ⟨1, ![32]⟩
abbrev S64x512x512 : Shape := ⟨3, ![64, 512, 512]⟩
abbrev S64x512 : Shape := ⟨2, ![64, 512]⟩
abbrev S_ : Shape := ⟨0, ![]⟩
abbrev S32x1 : Shape := ⟨2, ![32, 1]⟩
abbrev S32x512x512 : Shape := ⟨3, ![32, 512, 512]⟩
abbrev S32x512 : Shape := ⟨2, ![32, 512]⟩
abbrev S32x512x1 : Shape := ⟨3, ![32, 512, 1]⟩

abbrev nBuf : Space → Nat
  | .hbm => 26
  | .vmem => 0
  | .smem => 0
  | _ => 0

abbrev bufTy : (tb : Table) → Fin (tcTables nBuf tb) → BufTy
  | .hbm, ⟨0, _⟩ => ⟨S32x512x1024, .f32⟩
  | .hbm, ⟨1, _⟩ => ⟨S32, .i32⟩
  | .hbm, ⟨2, _⟩ => ⟨S64x512x512, .f32⟩
  | .hbm, ⟨3, _⟩ => ⟨S64x512, .f32⟩
  | .hbm, ⟨4, _⟩ => ⟨S_, .i32⟩
  | .hbm, ⟨5, _⟩ => ⟨S32, .i32⟩
  | .hbm, ⟨6, _⟩ => ⟨S32, .i1⟩
  | .hbm, ⟨7, _⟩ => ⟨S_, .i32⟩
  | .hbm, ⟨8, _⟩ => ⟨S32, .i32⟩
  | .hbm, ⟨9, _⟩ => ⟨S32, .i32⟩
  | .hbm, ⟨10, _⟩ => ⟨S32, .i32⟩
  | .hbm, ⟨11, _⟩ => ⟨S32x1, .i32⟩
  | .hbm, ⟨12, _⟩ => ⟨S32x512x512, .f32⟩
  | .hbm, ⟨13, _⟩ => ⟨S32x512x1024, .f32⟩
  | .hbm, ⟨14, _⟩ => ⟨S_, .i32⟩
  | .hbm, ⟨15, _⟩ => ⟨S32, .i32⟩
  | .hbm, ⟨16, _⟩ => ⟨S32, .i1⟩
  | .hbm, ⟨17, _⟩ => ⟨S_, .i32⟩
  | .hbm, ⟨18, _⟩ => ⟨S32, .i32⟩
  | .hbm, ⟨19, _⟩ => ⟨S32, .i32⟩
  | .hbm, ⟨20, _⟩ => ⟨S32, .i32⟩
  | .hbm, ⟨21, _⟩ => ⟨S32x1, .i32⟩
  | .hbm, ⟨22, _⟩ => ⟨S32x512, .f32⟩
  | .hbm, ⟨23, _⟩ => ⟨S32x512x1, .f32⟩
  | .hbm, ⟨24, _⟩ => ⟨S32x512x1024, .f32⟩
  | .hbm, ⟨25, _⟩ => ⟨S32x512x1024, .f32⟩
  | _, _ => ⟨S32x512x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_v0 : Ref sig .tc := ⟨.hbm, 5, rfl⟩
abbrev main_v1 : Ref sig .tc := ⟨.hbm, 6, rfl⟩
abbrev main_c_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_c_1 : Ref sig .tc := ⟨.hbm, 14, rfl⟩
abbrev main_v8 : Ref sig .tc := ⟨.hbm, 15, rfl⟩
abbrev main_v9 : Ref sig .tc := ⟨.hbm, 16, rfl⟩
abbrev main_c_2 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩

abbrev nD : Nat := 1
abbrev τ : Topo := Topo.v7x

variable {F : FTy → Type} [FloatOps F]

class Facts₀ : Prop where
  bcast_S_S32 : S_.BroadcastsInDim S32 (![] : Fin 0 → Fin S32.rank)
  bcast_S32_S32x1_0 : S32.BroadcastsInDim S32x1 (![0] : Fin 1 → Fin S32x1.rank)
  bcast_S32x512_S32x512x1_0_1 : S32x512.BroadcastsInDim S32x512x1 (![0, 1] : Fin 2 → Fin S32x512x1.rank)
  bcast_S32x512x1_S32x512x1024_0_1_2 : S32x512x1.BroadcastsInDim S32x512x1024 (![0, 1, 2] : Fin 3 → Fin S32x512x1024.rank)
  gather_S64x512x512_S32x1_S32x512x512_12_0_n_n_0_1_1512512_wf : GatherDims.WF S64x512x512 S32x1 S32x512x512 [1, 2] [0] [] [0] [] 1 ![1, 512, 512]
  dot_S32x512x512_S32x512x1024_S32x512x1024_1_1_2_2_0_0_wf : DotDims.WF S32x512x512 S32x512x1024 S32x512x1024 [1] [1] [2] [2] [0] [0]
  gather_S64x512_S32x1_S32x512_1_0_n_n_0_1_1512_wf : GatherDims.WF S64x512 S32x1 S32x512 [1] [0] [] [0] [] 1 ![1, 512]

variable [Facts₀]

def gather_S64x512x512_S32x1_S32x512x512_12_0_n_n_0_1_1512512 : GatherDims S64x512x512 S32x1 S32x512x512 where
  offsetDims := [1, 2]
  collapsedSliceDims := [0]
  operandBatchingDims := []
  startIndicesBatchingDims := []
  startIndexMap := [0]
  indexVectorDim := 1
  sliceSizes := ![1, 512, 512]
  wf := gather_S64x512x512_S32x1_S32x512x512_12_0_n_n_0_1_1512512_wf
def dot_S32x512x512_S32x512x1024_S32x512x1024_1_1_2_2_0_0 : DotDims S32x512x512 S32x512x1024 S32x512x1024 where
  lhsContracting := [1]
  rhsContracting := [1]
  lhsNonContracting := [2]
  rhsNonContracting := [2]
  lhsBatch := [0]
  rhsBatch := [0]
  wf := dot_S32x512x512_S32x512x1024_S32x512x1024_1_1_2_2_0_0_wf
def gather_S64x512_S32x1_S32x512_1_0_n_n_0_1_1512 : GatherDims S64x512 S32x1 S32x512 where
  offsetDims := [1]
  collapsedSliceDims := [0]
  operandBatchingDims := []
  startIndicesBatchingDims := []
  startIndexMap := [0]
  indexVectorDim := 1
  sliceSizes := ![1, 512]
  wf := gather_S64x512_S32x1_S32x512_1_0_n_n_0_1_1512_wf

class Facts : Prop extends Facts₀ where

variable [Facts]
-- ==== Proof.Words.lean ====
/-
  Facts about single 32-bit words that both programs' index arithmetic comes down to.

  The kernel clamps a subject id into [0, 63] as signed words (a maximum with 0, then a minimum with 63);
  the reference maps a negative id s to s + 64 and leaves the others. On an id that already lies in
  [0, 64) both leave the word alone, its signed value is its unsigned one, and a clamp of that value
  to at most 63 changes nothing: the two programs then name the same row of the weight table.
-/
import Idealize.ShloMosaic.PureOps

namespace Cert.Words

open Idealize.ShloMosaic

/-- The signed clamp of a word into [0, 63]: the larger of 0 and s, then the smaller of 63 and that. -/
def clip63 (s : BitVec 32) : BitVec 32 := IntOp.minsi 63#32 (IntOp.maxsi 0#32 s)

theorem ofBool_eq_one (b : Bool) : BitVec.ofBool b = 1#1 ↔ b = true := by cases b <;> decide

/-- The signed value of a word, by cases on its top bit, in a form linear arithmetic can use. -/
theorem toInt_cases (w : BitVec 32) :
    (w.toNat < 2 ^ 31 ∧ w.toInt = (w.toNat : Int)) ∨ (2 ^ 31 ≤ w.toNat ∧ w.toInt = (w.toNat : Int) - 2 ^ 32) := by
  have h32 := w.isLt
  rw [BitVec.toInt_eq_toNat_cond]
  by_cases hc : 2 * w.toNat < 2 ^ 32
  · left; rw [if_pos hc]; exact ⟨by omega, rfl⟩
  · right; rw [if_neg hc]; exact ⟨by omega, by omega⟩

/-- The clamp lands in [0, 63], read unsigned. -/
theorem clip63_lt (s : BitVec 32) : (clip63 s).toNat < 64 := by
  unfold clip63 IntOp.minsi IntOp.maxsi
  have h0 : (0#32 : BitVec 32).toInt = 0 := by decide
  have h63 : (63#32 : BitVec 32).toInt = 63 := by decide
  have n63 : (63#32 : BitVec 32).toNat = 63 := by decide
  have n0 : (0#32 : BitVec 32).toNat = 0 := by decide
  rcases toInt_cases s with ⟨hs, es⟩ | ⟨hs, es⟩
  · by_cases h1 : s.slt 0#32 = true
    · rw [if_pos h1]
      by_cases h2 : (63#32 : BitVec 32).slt 0#32 = true
      · rw [if_pos h2, n63]; omega
      · rw [if_neg h2, n0]; omega
    · rw [if_neg h1]
      by_cases h2 : (63#32 : BitVec 32).slt s = true
      · rw [if_pos h2, n63]; omega
      · rw [if_neg h2]
        simp only [BitVec.slt, decide_eq_true_eq, h63, es] at h2
        omega
  · have h1 : s.slt 0#32 = true := by
      simp only [BitVec.slt, decide_eq_true_eq, h0, es]; omega
    rw [if_pos h1]
    by_cases h2 : (63#32 : BitVec 32).slt 0#32 = true
    · rw [if_pos h2, n63]; omega
    · rw [if_neg h2, n0]; omega

/-- On an id already in [0, 64) the clamp is the identity. -/
theorem clip63_of_lt (s : BitVec 32) (h : s.toNat < 64) : clip63 s = s := by
  unfold clip63 IntOp.minsi IntOp.maxsi
  have h0 : (0#32 : BitVec 32).toInt = 0 := by decide
  have h63 : (63#32 : BitVec 32).toInt = 63 := by decide
  rcases toInt_cases s with ⟨hs, es⟩ | ⟨hs, es⟩
  · have h1 : ¬ (s.slt 0#32 = true) := by
      simp only [BitVec.slt, decide_eq_true_eq, h0, es]; omega
    rw [if_neg h1]
    have h2 : ¬ ((63#32 : BitVec 32).slt s = true) := by
      simp only [BitVec.slt, decide_eq_true_eq, h63, es]; omega
    rw [if_neg h2]
  · omega

/-- On an id in [0, 64) the reference's wrap of negative ids is not taken. -/
theorem wrap_of_lt (s : BitVec 32) (h : s.toNat < 64) :
    Scalar.select (IntOp.cmpi .slt s 0#32) (IntOp.addi s 64#32) s = s := by
  have h0 : (0#32 : BitVec 32).toInt = 0 := by decide
  have hn : ¬ (IntOp.cmpi .slt s 0#32 = 1) := by
    intro h'
    have h'' : BitVec.ofBool (s.slt 0#32) = 1#1 := h'
    rw [ofBool_eq_one] at h''
    rcases toInt_cases s with ⟨hs, es⟩ | ⟨hs, es⟩
    · simp only [BitVec.slt, decide_eq_true_eq, h0, es] at h''; omega
    · omega
  exact if_neg hn

/-- The signed value of an id in [0, 64), as a natural number, is its unsigned value. -/
theorem toInt_toNat_of_lt (s : BitVec 32) (h : s.toNat < 64) : s.toInt.toNat = s.toNat := by
  rcases toInt_cases s with ⟨hs, es⟩ | ⟨hs, es⟩
  · rw [es]; exact Int.toNat_natCast _
  · omega

/-- A word that is at least 0 and below 64 as a signed number is below 64 as an unsigned one. -/
theorem toNat_lt_of_signed (s : BitVec 32) (hge : IntOp.cmpi .sge s 0#32 = 1#1) (hlt : IntOp.cmpi .slt s 64#32 = 1#1) :
    s.toNat < 64 := by
  have h0 : (0#32 : BitVec 32).toInt = 0 := by decide
  have h64 : (64#32 : BitVec 32).toInt = 64 := by decide
  have a : BitVec.ofBool ((0#32 : BitVec 32).sle s) = 1#1 := hge
  have b : BitVec.ofBool (s.slt 64#32) = 1#1 := hlt
  rw [ofBool_eq_one] at a b
  simp only [BitVec.slt, BitVec.sle, decide_eq_true_eq, h0, h64] at a b
  rcases toInt_cases s with ⟨hs, es⟩ | ⟨hs, es⟩
  · rw [es] at b; omega
  · rw [es] at a; omega

end Cert.Words
-- ==== Proof.Routing.lean ====
/-
  How the kernel routes the batch: the tables its index maps read, as pure functions of the subject ids.

  The ids are clamped into [0, 63] (`clipped`), the 32 batch positions are sorted stably by clamped id, and
  the sort carries the positions along: `order` at sorted position t is the original position `perm t`,
  where `perm` is a permutation of the 32 positions (a stable sort only rearranges). The second table is
  the clamped ids read through `order` by jnp's `take`: because every entry of `order` is a position in
  [0, 32), the take's bounds test passes everywhere and entry t is the clamped id of position `perm t`.
-/
import Idealize.ShloMosaic.PureOps
import Idealize.ShloMosaic.Lib.SortFacts
import Idealize.ShloMosaic.Lib.StableHlo.Predicate
import proofs.«416088_j31937376813637_2_alg».proof.Proof.Words

namespace Cert.Routing

open Idealize.ShloMosaic Idealize.ShloMosaic.StableHlo.Predicate

abbrev S_ : Shape := ⟨0, ![]⟩
abbrev S1 : Shape := ⟨1, ![1]⟩
abbrev S1x1 : Shape := ⟨2, ![1, 1]⟩
abbrev S32 : Shape := ⟨1, ![32]⟩
abbrev S32x1 : Shape := ⟨2, ![32, 1]⟩

/-- The order the sort compares two (key, position) pairs by: the keys alone, signed. -/
def byKey : BitVec 32 × BitVec 32 → BitVec 32 × BitVec 32 → BitVec 1 := fun l r => IntOp.cmpi .slt l.1 r.1

section Sorting

variable (hS32 : S_.BroadcastsInDim S32 (![] : Fin 0 → Fin S32.rank))

/-- The subject ids clamped into [0, 63], entry by entry. -/
def clipped (s : IVec S32 32) : IVec S32 32 :=
  minsi (broadcastInDim S32 ![] hS32 (constantI S_ 32 63#32)) (maxsi (broadcastInDim S32 ![] hS32 (constantI S_ 32 0#32)) s)

theorem clipped_apply (s : IVec S32 32) (j : S32.Idx) : clipped hS32 s j = Cert.Words.clip63 (s j) := rfl

/-- The batch positions in sorted order: the position table carried through the stable sort by clamped id. -/
def order (s : IVec S32 32) : IVec S32 32 :=
  (Host.sort2 S32 0 byKey (clipped hS32 s) (iotaInDim S32 32 0)).2

/-- The sorting permutation: sorted position t holds original position `perm t`. -/
def perm (s : IVec S32 32) : Fin 32 → Fin 32 :=
  sortedFrom (fun k k' => byKey (clipped hS32 s (Shape.Idx.ofFin k), iotaInDim S32 32 0 (Shape.Idx.ofFin k))
    (clipped hS32 s (Shape.Idx.ofFin k'), iotaInDim S32 32 0 (Shape.Idx.ofFin k')) == 1#1)

theorem perm_surjective (s : IVec S32 32) : Function.Surjective (perm hS32 s) := sortedFrom_surjective _
theorem perm_injective (s : IVec S32 32) : Function.Injective (perm hS32 s) := sortedFrom_injective _

/-- Entry t of the sorted position table is the word of position `perm t`. -/
theorem order_apply (s : IVec S32 32) (t : Fin 32) :
    order hS32 s (Shape.Idx.ofFin t) = BitVec.ofNat 32 (perm hS32 s t).val := by
  unfold order Host.sort2 perm
  simp
  exact iota_apply _

-- The permutation is characterised by the two facts above and by `order_apply`; it is sealed so that it is never computed.
attribute [irreducible] perm

end Sorting

section Take

variable (hS32 : S_.BroadcastsInDim S32 (![] : Fin 0 → Fin S32.rank))
  (hcol : S32.BroadcastsInDim S32x1 (![0] : Fin 1 → Fin S32x1.rank))
  (hS32x1 : S_.BroadcastsInDim S32x1 (![] : Fin 0 → Fin S32x1.rank))
  (h11 : S1.BroadcastsInDim S1x1 (![1] : Fin 1 → Fin S1x1.rank))
  (h1132 : S1x1.BroadcastsInDim S32x1 (![0, 1] : Fin 2 → Fin S32x1.rank))
  (hred : S32x1.ReducesTo [1] S32) (hpos : 0 < S_.numel)
  (gd : GatherDims S32 S32x1 S32)

/-! jnp's `take(table, idx)` in its default mode, operation by operation: a negative index has 32 added
    (`wrapped`), the result is laid out as a column (`column`) and tested against [0, 31] (`inBounds`), the table is
    gathered at it, and where the test fails the entry is the smallest signed word (`taken`). -/

def wrapped (idx : IVec S32 32) : IVec S32 32 :=
  select (cmpi .slt idx (broadcastInDim S32 ![] hS32 (constantI S_ 32 0#32)))
    (addi idx (broadcastInDim S32 ![] hS32 (constantI S_ 32 32#32))) idx

def column (idx : IVec S32 32) : IVec S32x1 32 := broadcastInDim S32x1 ![0] hcol (wrapped hS32 idx)

def inBounds (idx : IVec S32 32) : IVec S32 1 :=
  Host.reduce IntOp.andi
    (andi (cmpi .sge (column hS32 hcol idx) (broadcastInDim S32x1 ![] hS32x1 (constantI S_ 32 0#32)))
      (cmpi .sle (column hS32 hcol idx) (broadcastInDim S32x1 ![0, 1] h1132 (broadcastInDim S1x1 ![1] h11 (constantI S1 32 31#32)))))
    (constantI S_ 1 1#1) hred hpos

def taken (table idx : IVec S32 32) : IVec S32 32 :=
  select (inBounds hS32 hcol hS32x1 h11 h1132 hred hpos idx) (Host.gather gd table (column hS32 hcol idx))
    (broadcastInDim S32 ![] hS32 (constantI S_ 32 2147483648#32))

/-- The word of a position in [0, 32) is not negative, so it is not wrapped, -/
theorem wrap_pos : ∀ k : Fin 32, Scalar.select (IntOp.cmpi .slt (BitVec.ofNat 32 k.val) 0#32)
    (IntOp.addi (BitVec.ofNat 32 k.val) 32#32) (BitVec.ofNat 32 k.val) = BitVec.ofNat 32 k.val := by decide
/-- it passes the bounds test, -/
theorem test_pos : ∀ k : Fin 32, IntOp.andi (IntOp.andi (IntOp.cmpi .sge (BitVec.ofNat 32 k.val) 0#32)
    (IntOp.cmpi .sle (BitVec.ofNat 32 k.val) 31#32)) 1#1 = 1#1 := by decide
/-- and its signed value clamped to the last position is the position. -/
theorem clamp_pos : ∀ k : Fin 32, min (BitVec.ofNat 32 k.val).toInt.toNat (32 - 1) = k.val := by decide

variable {hS32 hcol}

theorem wrapped_apply (idx : IVec S32 32) (t k : Fin 32) (hk : idx (Shape.Idx.ofFin t) = BitVec.ofNat 32 k.val) :
    wrapped hS32 idx (Shape.Idx.ofFin t) = BitVec.ofNat 32 k.val := by
  show Scalar.select (IntOp.cmpi .slt (idx (Shape.Idx.ofFin t)) 0#32) (IntOp.addi (idx (Shape.Idx.ofFin t)) 32#32)
    (idx (Shape.Idx.ofFin t)) = _
  rw [hk]; exact wrap_pos k

theorem column_apply (idx : IVec S32 32) (t k : Fin 32) (hk : idx (Shape.Idx.ofFin t) = BitVec.ofNat 32 k.val) :
    column hS32 hcol idx (ixP t) = BitVec.ofNat 32 k.val :=
  (bcast_col1 hcol _ t).trans (wrapped_apply idx t k hk)

variable {hS32x1 h11 h1132 hred hpos}

theorem inBounds_apply (idx : IVec S32 32) (t k : Fin 32) (hk : idx (Shape.Idx.ofFin t) = BitVec.ofNat 32 k.val) :
    inBounds hS32 hcol hS32x1 h11 h1132 hred hpos idx (Shape.Idx.ofFin t) = 1#1 := by
  have hR : S32x1.Reduces [(1 : Fin S32x1.rank)] S32 := by decide
  unfold inBounds
  rw [Host.reduce_eq_fold_single IntOp.andi _ _ hred hR hpos]
  have hu : (Finset.univ : Finset (Fin (S32x1.size 1))) = {⟨0, by decide⟩} := by decide
  rw [hu, Finset.fold_singleton]
  have hl : hR.lift (Shape.Idx.ofFin t) ⟨0, by decide⟩ = ixP t := by
    funext c
    match c with
    | ⟨0, _⟩ => rfl
    | ⟨1, _⟩ => rfl
  show IntOp.andi (IntOp.andi (IntOp.cmpi .sge (column hS32 hcol idx (hR.lift (Shape.Idx.ofFin t) ⟨0, by decide⟩)) 0#32)
    (IntOp.cmpi .sle (column hS32 hcol idx (hR.lift (Shape.Idx.ofFin t) ⟨0, by decide⟩)) 31#32)) 1#1 = 1#1
  rw [hl, column_apply idx t k hk]
  exact test_pos k

variable {gd}

/-- Where the index table's entry t is the word of a position k in [0, 32), the take's entry t is the table at k. -/
theorem taken_apply (hcoll : gd.collapsedSliceDims = [0]) (hob : gd.operandBatchingDims = [])
    (hsim : gd.startIndexMap = [0]) (hivd : gd.indexVectorDim = 1)
    (table idx : IVec S32 32) (t k : Fin 32) (hk : idx (Shape.Idx.ofFin t) = BitVec.ofNat 32 k.val) :
    taken hS32 hcol hS32x1 h11 h1132 hred hpos gd table idx (Shape.Idx.ofFin t) = table (Shape.Idx.ofFin k) := by
  show Scalar.select (inBounds hS32 hcol hS32x1 h11 h1132 hred hpos idx (Shape.Idx.ofFin t))
    (Host.gather gd table (column hS32 hcol idx) (Shape.Idx.ofFin t)) 2147483648#32 = _
  rw [inBounds_apply idx t k hk, gather_take gd hcoll hob hsim hivd table _ t (by decide)]
  show table _ = _
  congr 1
  refine congrArg Shape.Idx.ofFin (Fin.ext ?_)
  show min (column hS32 hcol idx (ixP t)).toInt.toNat (32 - 1) = k.val
  rw [column_apply idx t k hk]
  exact clamp_pos k

end Take

end Cert.Routing
-- ==== Proof.BitsTables.lean ====
/-
  The word-level kernel's two tables, as the launch memory determines them: the same reading as for the idealized
  kernel, since the clamp, the sort and the take are integer operations and mean the same at every float instance.

  Table 1 is the sorted position table (`Routing.order` of the subject ids): entry t is the word of batch position
  `perm t`, a number below 32. Table 0 is the clamped ids taken through table 1 (`Routing.taken`): entry t is the
  clamped id of position `perm t`, a number below 64. The index maps of x and of the output read table 1, those of the
  weights and of the bias read table 0, each as a leading block index with unit block extent on that axis; so every
  block lies inside its array (32 batch entries, 64 table rows), which is the pipeline's side condition. It holds for
  every launch memory: the clamp and the sort are the kernel's own.
-/
import proofs.«416088_j31937376813637_2_alg».proof.Proof.Gen.Kernel.Frame
import proofs.«416088_j31937376813637_2_alg».proof.Proof.Routing

set_option maxRecDepth 16384

noncomputable section

namespace Cert.Kernel.Tables

open Cert.Kernel Cert.Kernel.Gen
open Idealize.ShloMosaic Idealize.ShloMosaic.TcCoe Idealize.SL.Sem Idealize.ShloMosaic.StableHlo
open Cert.Routing (order perm clipped taken)

variable {F : FTy → Type} [FloatOps F]
variable (m : (ℓ : Loc nD τ sig) → Buf (Elt F) ℓ)

/-- The subject ids in the launch memory (the program runs on one device). -/
abbrev ids : IVec S32 32 := m (((0 : Dev nD) : Thread nD τ).loc main_arg1)

/-- The sorting permutation of the batch positions, for this launch memory. -/
abbrev σ : Fin 32 → Fin 32 := perm bcast_S_S32 (ids m)

theorem σ_injective : Function.Injective (σ m) := Cert.Routing.perm_injective _ _
theorem σ_surjective : Function.Surjective (σ m) := Cert.Routing.perm_surjective _ _

/-- Running two lines of host operations in a row is running their concatenation. -/
theorem after_append (l₁ l₂ : List (HloOp τ sig (Elt F))) (U : Valuation τ sig (Elt F)) :
    after (l₁ ++ l₂) U = after l₂ (after l₁ U) := by
  induction l₁ generalizing U with
  | nil => rfl
  | cons op ops ih => exact ih _

/-- The buffers once the ids are clamped and sorted, before the take: what the take reads its two operands from. -/
def sorted : Valuation τ sig (Elt F) :=
  after hostOps0_2 (after hostOps0_1 (after hostOps0 (fun b => m ((0 : Dev nD), b))))

/-- The region finds the buffers as the take and the bias's re-layout leave them, from there. -/
theorem V_eq (b : Ref sig .tc) : V m 0 b = after hostOps0_4 (after hostOps0_3 (sorted m)) (Proc.devRef .tc b) := by
  dsimp only [V]
  simp only [List.flatten_cons, List.flatten_nil, List.append_nil, after_append]
  rfl

/-- Before the take, the clamped ids are in their buffer … -/
theorem sorted_ids : sorted m (Proc.devRef .tc main_v0) = clipped bcast_S_S32 (ids m) := by
  unfold sorted
  simp only [hostOps0, hostOps0_1, hostOps0_2]
  after_results
  rfl

/-- … and the sorted position table in its own. -/
theorem sorted_order : sorted m (Proc.devRef .tc main_v1) = order bcast_S_S32 (ids m) := by
  unfold sorted
  simp only [hostOps0, hostOps0_1, hostOps0_2]
  after_results
  rfl

/-- Table 1 is the sorted position table: the take and the re-layout do not write it. -/
theorem tbl1_eq : tbl m 1 = order bcast_S_S32 (ids m) := by
  unfold tbl
  show V m 0 main_v1 = _
  rw [V_eq, ← sorted_order]
  generalize sorted m = U
  simp only [hostOps0_3, hostOps0_4]
  after_results

set_option maxHeartbeats 1000000 in
/-- Table 0 is the take of the clamped ids through the sorted position table. -/
theorem tbl0_eq : tbl m 0 = taken bcast_S_S32 bcast_S32_S32x1_0 bcast_S_S32x1 bcast_S1_S1x1_1 bcast_S1x1_S32x1_0_1
    reducesTo_S32x1_S32_d1 h_S_ gather_S32_S32x1_S32_n_0_n_n_0_1_1 (clipped bcast_S_S32 (ids m)) (order bcast_S_S32 (ids m)) := by
  unfold tbl
  show V m 0 main_v2 = _
  rw [V_eq, ← sorted_order, ← sorted_ids]
  generalize sorted m = U
  simp only [hostOps0_3, hostOps0_4]
  after_results
  simp only [cast_eq]
  rfl

/-- Entry t of table 1 is the word of position `σ t`; -/
theorem tbl1_apply (t : Fin 32) : tbl m 1 (Shape.Idx.ofFin t) = BitVec.ofNat 32 (σ m t).val := by
  rw [tbl1_eq]; exact Cert.Routing.order_apply _ _ t

/-- entry t of table 0 is the clamped id of position `σ t`. -/
theorem tbl0_apply (t : Fin 32) : tbl m 0 (Shape.Idx.ofFin t) = Cert.Words.clip63 (ids m (Shape.Idx.ofFin (σ m t))) := by
  rw [tbl0_eq]
  exact (Cert.Routing.taken_apply rfl rfl rfl rfl _ _ t (σ m t) (Cert.Routing.order_apply _ _ t)).trans
    (Cert.Routing.clipped_apply _ _ _)

theorem tbl1_toNat (t : Fin 32) : (tbl m 1 (Shape.Idx.ofFin t)).toNat = (σ m t).val := by
  rw [tbl1_apply]
  show (σ m t).val % 2 ^ 32 = _
  have := (σ m t).isLt
  omega

theorem tbl0_lt (t : Fin 32) : (tbl m 0 (Shape.Idx.ofFin t)).toNat < 64 := by
  rw [tbl0_apply]; exact Cert.Words.clip63_lt _

/-- The table position an index map reads at grid point i is position i. -/
theorem wordIdx (i : grid0.Coords) :
    (Rect.unit (s := S32) (k0_off1 i) S1.size (k0_off1_inb i)).emb (Shape.Idx.first (numel1_S1.symm ▸ Nat.one_pos))
      = Shape.Idx.ofFin (i 0) := by
  funext a
  obtain rfl : a = 0 := Subsingleton.elim _ _
  apply Fin.ext
  show (i 0).val % 2 ^ 32 + 1 * (Shape.Idx.first (numel1_S1.symm ▸ Nat.one_pos) (0 : Fin 1)).val = (i 0).val
  have h0 : (Shape.Idx.first (numel1_S1.symm ▸ Nat.one_pos) (0 : Fin 1) : Fin (S1.size 0)).val = 0 := by
    have := (Shape.Idx.first (numel1_S1.symm ▸ Nat.one_pos) (0 : Fin 1) : Fin (S1.size 0)).isLt
    have e : S1.size (0 : Fin 1) = 1 := by decide
    omega
  have := (i 0).isLt
  have e32 : grid0.bound 0 = 32 := by decide
  rw [h0]
  omega

end Cert.Kernel.Tables

end
-- ==== Proof.BitsOk.lean ====
/-
  The four index maps in closed form, and the pipeline's side condition.

  At grid point i the maps of x and of the output give the leading block index `table 1 [i]` (a batch position), the
  maps of the weights and of the bias give `table 0 [i]` (a table row), all other block indices 0. The blocks have
  unit extent on the leading axis and the full extent on the others, so a block lies inside its array exactly when its
  leading index is below the array's leading extent: 32 for x and the output, 64 for the two tables.
-/
import proofs.«416088_j31937376813637_2_alg».proof.Proof.BitsTables

set_option maxRecDepth 16384

noncomputable section

namespace Cert.Kernel.Tables

open Cert.Kernel Cert.Kernel.Gen
open Idealize.ShloMosaic Idealize.ShloMosaic.TcCoe Idealize.SL.Sem

variable {F : FTy → Type} [FloatOps F]
variable (m : (ℓ : Loc nD τ sig) → Buf (Elt F) ℓ)

theorem map_x (i : grid0.Coords) :
    cc0_transform_0 k0_off1_inb numel1_S1 (tbl m) i = ![(tbl m 1 (Shape.Idx.ofFin (i 0))).toNat, 0, 0] := by
  show ![((tbl m) 1 ((Rect.unit (s := S32) (k0_off1 i) S1.size (k0_off1_inb i)).emb
    (Shape.Idx.first (numel1_S1.symm ▸ Nat.one_pos)))).toNat, (0#32 : BitVec 32).toNat, (0#32 : BitVec 32).toNat] = _
  rw [wordIdx]; rfl

theorem map_w (i : grid0.Coords) :
    cc0_transform_1 k0_off1_inb numel1_S1 (tbl m) i = ![(tbl m 0 (Shape.Idx.ofFin (i 0))).toNat, 0, 0] := by
  show ![((tbl m) 0 ((Rect.unit (s := S32) (k0_off1 i) S1.size (k0_off1_inb i)).emb
    (Shape.Idx.first (numel1_S1.symm ▸ Nat.one_pos)))).toNat, (0#32 : BitVec 32).toNat, (0#32 : BitVec 32).toNat] = _
  rw [wordIdx]; rfl

theorem map_b (i : grid0.Coords) :
    cc0_transform_2 k0_off1_inb numel1_S1 (tbl m) i = ![(tbl m 0 (Shape.Idx.ofFin (i 0))).toNat, 0, 0] := by
  show ![((tbl m) 0 ((Rect.unit (s := S32) (k0_off1 i) S1.size (k0_off1_inb i)).emb
    (Shape.Idx.first (numel1_S1.symm ▸ Nat.one_pos)))).toNat, (0#32 : BitVec 32).toNat, (0#32 : BitVec 32).toNat] = _
  rw [wordIdx]; rfl

theorem map_o (i : grid0.Coords) :
    cc0_transform_3 k0_off1_inb numel1_S1 (tbl m) i = ![(tbl m 1 (Shape.Idx.ofFin (i 0))).toNat, 0, 0] := by
  show ![((tbl m) 1 ((Rect.unit (s := S32) (k0_off1 i) S1.size (k0_off1_inb i)).emb
    (Shape.Idx.first (numel1_S1.symm ▸ Nat.one_pos)))).toNat, (0#32 : BitVec 32).toNat, (0#32 : BitVec 32).toNat] = _
  rw [wordIdx]; rfl

/-- At grid point i, table 1 holds the word of batch position `σ i`. -/
theorem tbl1_at (i : grid0.Coords) : (tbl m 1 (Shape.Idx.ofFin (i 0))).toNat = (σ m (i 0)).val := tbl1_toNat m (i 0)

/-- THE SIDE CONDITION: every table-indexed block lies inside its array, for every launch memory. -/
theorem ok : Ok m := by
  have h1 : ∀ i : grid0.Coords, (tbl m 1 (Shape.Idx.ofFin (i 0))).toNat < 32 := fun i => by
    have e := tbl1_at m i
    have l := (σ m (i 0)).isLt
    omega
  have h0 : ∀ i : grid0.Coords, (tbl m 0 (Shape.Idx.ofFin (i 0))).toNat < 64 := fun i => tbl0_lt m (i 0)
  refine ⟨fun i => ⟨fun a => ?_, Or.inl rfl⟩, fun i => ⟨fun a => ?_, Or.inl rfl⟩, fun i => ⟨fun a => ?_, Or.inl rfl⟩,
    fun i => ⟨fun a => ?_, Or.inl rfl⟩⟩
  · rw [map_x]; have := h1 i
    fin_cases a <;> simp [S1x512x1024, S32x512x1024] <;> omega
  · rw [map_w]; have := h0 i
    fin_cases a <;> simp [S1x512x512, S64x512x512] <;> omega
  · rw [map_b]; have := h0 i
    fin_cases a <;> simp [S1x512x1, S64x512x1] <;> omega
  · rw [map_o]; have := h1 i
    fin_cases a <;> simp [S1x512x1024, S32x512x1024] <;> omega

end Cert.Kernel.Tables

end
-- ==== Proof.IdealTables.lean ====
/-
  The two tables the kernel's index maps read, as the launch memory determines them, and the pipeline's side
  condition on them.

  Table 1 is the sorted position table (`Routing.order` of the subject ids): entry t is the word of batch position
  `perm t`, a number below 32. Table 0 is the clamped ids taken through table 1 (`Routing.taken`): entry t is the
  clamped id of position `perm t`, a number below 64. The index maps of x and of the output read table 1, those of the
  weights and of the bias read table 0, each as a leading block index with unit block extent on that axis; so every
  block lies inside its array (32 batch entries, 64 table rows), which is the pipeline's side condition. It holds for
  every launch memory: the clamp and the sort are the kernel's own.
-/
import proofs.«416088_j31937376813637_2_alg».proof.Proof.Gen.KernelIdeal.Frame
import proofs.«416088_j31937376813637_2_alg».proof.Proof.Routing

set_option maxRecDepth 16384

noncomputable section

namespace Cert.KernelIdeal.Tables

open Cert.KernelIdeal Cert.KernelIdeal.Gen
open Idealize.ShloMosaic Idealize.ShloMosaic.TcCoe Idealize.SL.Sem Idealize.ShloMosaic.StableHlo
open Cert.Routing (order perm clipped taken)

variable {F : FTy → Type} [FloatOps F]
variable (m : (ℓ : Loc nD τ sig) → Buf (Elt F) ℓ)

/-- The subject ids in the launch memory (the program runs on one device). -/
abbrev ids : IVec S32 32 := m (((0 : Dev nD) : Thread nD τ).loc main_arg1)

/-- The sorting permutation of the batch positions, for this launch memory. -/
abbrev σ : Fin 32 → Fin 32 := perm bcast_S_S32 (ids m)

theorem σ_injective : Function.Injective (σ m) := Cert.Routing.perm_injective _ _
theorem σ_surjective : Function.Surjective (σ m) := Cert.Routing.perm_surjective _ _

/-- Running two lines of host operations in a row is running their concatenation. -/
theorem after_append (l₁ l₂ : List (HloOp τ sig (Elt F))) (U : Valuation τ sig (Elt F)) :
    after (l₁ ++ l₂) U = after l₂ (after l₁ U) := by
  induction l₁ generalizing U with
  | nil => rfl
  | cons op ops ih => exact ih _

/-- The buffers once the ids are clamped and sorted, before the take: what the take reads its two operands from. -/
def sorted : Valuation τ sig (Elt F) :=
  after hostOps0_2 (after hostOps0_1 (after hostOps0 (fun b => m ((0 : Dev nD), b))))

/-- The region finds the buffers as the take and the bias's re-layout leave them, from there. -/
theorem V_eq (b : Ref sig .tc) : V m 0 b = after hostOps0_4 (after hostOps0_3 (sorted m)) (Proc.devRef .tc b) := by
  dsimp only [V]
  simp only [List.flatten_cons, List.flatten_nil, List.append_nil, after_append]
  rfl

/-- Before the take, the clamped ids are in their buffer … -/
theorem sorted_ids : sorted m (Proc.devRef .tc main_v0) = clipped bcast_S_S32 (ids m) := by
  unfold sorted
  simp only [hostOps0, hostOps0_1, hostOps0_2]
  after_results
  rfl

/-- … and the sorted position table in its own. -/
theorem sorted_order : sorted m (Proc.devRef .tc main_v1) = order bcast_S_S32 (ids m) := by
  unfold sorted
  simp only [hostOps0, hostOps0_1, hostOps0_2]
  after_results
  rfl

/-- Table 1 is the sorted position table: the take and the re-layout do not write it. -/
theorem tbl1_eq : tbl m 1 = order bcast_S_S32 (ids m) := by
  unfold tbl
  show V m 0 main_v1 = _
  rw [V_eq, ← sorted_order]
  generalize sorted m = U
  simp only [hostOps0_3, hostOps0_4]
  after_results

set_option maxHeartbeats 1000000 in
/-- Table 0 is the take of the clamped ids through the sorted position table. -/
theorem tbl0_eq : tbl m 0 = taken bcast_S_S32 bcast_S32_S32x1_0 bcast_S_S32x1 bcast_S1_S1x1_1 bcast_S1x1_S32x1_0_1
    reducesTo_S32x1_S32_d1 h_S_ gather_S32_S32x1_S32_n_0_n_n_0_1_1 (clipped bcast_S_S32 (ids m)) (order bcast_S_S32 (ids m)) := by
  unfold tbl
  show V m 0 main_v2 = _
  rw [V_eq, ← sorted_order, ← sorted_ids]
  generalize sorted m = U
  simp only [hostOps0_3, hostOps0_4]
  after_results
  simp only [cast_eq]
  rfl

/-- Entry t of table 1 is the word of position `σ t`; -/
theorem tbl1_apply (t : Fin 32) : tbl m 1 (Shape.Idx.ofFin t) = BitVec.ofNat 32 (σ m t).val := by
  rw [tbl1_eq]; exact Cert.Routing.order_apply _ _ t

/-- entry t of table 0 is the clamped id of position `σ t`. -/
theorem tbl0_apply (t : Fin 32) : tbl m 0 (Shape.Idx.ofFin t) = Cert.Words.clip63 (ids m (Shape.Idx.ofFin (σ m t))) := by
  rw [tbl0_eq]
  exact (Cert.Routing.taken_apply rfl rfl rfl rfl _ _ t (σ m t) (Cert.Routing.order_apply _ _ t)).trans
    (Cert.Routing.clipped_apply _ _ _)

theorem tbl1_toNat (t : Fin 32) : (tbl m 1 (Shape.Idx.ofFin t)).toNat = (σ m t).val := by
  rw [tbl1_apply]
  show (σ m t).val % 2 ^ 32 = _
  have := (σ m t).isLt
  omega

theorem tbl0_lt (t : Fin 32) : (tbl m 0 (Shape.Idx.ofFin t)).toNat < 64 := by
  rw [tbl0_apply]; exact Cert.Words.clip63_lt _

/-- The table position an index map reads at grid point i is position i. -/
theorem wordIdx (i : grid0.Coords) :
    (Rect.unit (s := S32) (k0_off1 i) S1.size (k0_off1_inb i)).emb (Shape.Idx.first (numel1_S1.symm ▸ Nat.one_pos))
      = Shape.Idx.ofFin (i 0) := by
  funext a
  obtain rfl : a = 0 := Subsingleton.elim _ _
  apply Fin.ext
  show (i 0).val % 2 ^ 32 + 1 * (Shape.Idx.first (numel1_S1.symm ▸ Nat.one_pos) (0 : Fin 1)).val = (i 0).val
  have h0 : (Shape.Idx.first (numel1_S1.symm ▸ Nat.one_pos) (0 : Fin 1) : Fin (S1.size 0)).val = 0 := by
    have := (Shape.Idx.first (numel1_S1.symm ▸ Nat.one_pos) (0 : Fin 1) : Fin (S1.size 0)).isLt
    have e : S1.size (0 : Fin 1) = 1 := by decide
    omega
  have := (i 0).isLt
  have e32 : grid0.bound 0 = 32 := by decide
  rw [h0]
  omega

end Cert.KernelIdeal.Tables

end
-- ==== Proof.IdealOk.lean ====
/-
  The four index maps in closed form, and the pipeline's side condition.

  At grid point i the maps of x and of the output give the leading block index `table 1 [i]` (a batch position), the
  maps of the weights and of the bias give `table 0 [i]` (a table row), all other block indices 0. The blocks have
  unit extent on the leading axis and the full extent on the others, so a block lies inside its array exactly when its
  leading index is below the array's leading extent: 32 for x and the output, 64 for the two tables.
-/
import proofs.«416088_j31937376813637_2_alg».proof.Proof.IdealTables

set_option maxRecDepth 16384

noncomputable section

namespace Cert.KernelIdeal.Tables

open Cert.KernelIdeal Cert.KernelIdeal.Gen
open Idealize.ShloMosaic Idealize.ShloMosaic.TcCoe Idealize.SL.Sem

variable {F : FTy → Type} [FloatOps F]
variable (m : (ℓ : Loc nD τ sig) → Buf (Elt F) ℓ)

theorem map_x (i : grid0.Coords) :
    cc0_transform_0 k0_off1_inb numel1_S1 (tbl m) i = ![(tbl m 1 (Shape.Idx.ofFin (i 0))).toNat, 0, 0] := by
  show ![((tbl m) 1 ((Rect.unit (s := S32) (k0_off1 i) S1.size (k0_off1_inb i)).emb
    (Shape.Idx.first (numel1_S1.symm ▸ Nat.one_pos)))).toNat, (0#32 : BitVec 32).toNat, (0#32 : BitVec 32).toNat] = _
  rw [wordIdx]; rfl

theorem map_w (i : grid0.Coords) :
    cc0_transform_1 k0_off1_inb numel1_S1 (tbl m) i = ![(tbl m 0 (Shape.Idx.ofFin (i 0))).toNat, 0, 0] := by
  show ![((tbl m) 0 ((Rect.unit (s := S32) (k0_off1 i) S1.size (k0_off1_inb i)).emb
    (Shape.Idx.first (numel1_S1.symm ▸ Nat.one_pos)))).toNat, (0#32 : BitVec 32).toNat, (0#32 : BitVec 32).toNat] = _
  rw [wordIdx]; rfl

theorem map_b (i : grid0.Coords) :
    cc0_transform_2 k0_off1_inb numel1_S1 (tbl m) i = ![(tbl m 0 (Shape.Idx.ofFin (i 0))).toNat, 0, 0] := by
  show ![((tbl m) 0 ((Rect.unit (s := S32) (k0_off1 i) S1.size (k0_off1_inb i)).emb
    (Shape.Idx.first (numel1_S1.symm ▸ Nat.one_pos)))).toNat, (0#32 : BitVec 32).toNat, (0#32 : BitVec 32).toNat] = _
  rw [wordIdx]; rfl

theorem map_o (i : grid0.Coords) :
    cc0_transform_3 k0_off1_inb numel1_S1 (tbl m) i = ![(tbl m 1 (Shape.Idx.ofFin (i 0))).toNat, 0, 0] := by
  show ![((tbl m) 1 ((Rect.unit (s := S32) (k0_off1 i) S1.size (k0_off1_inb i)).emb
    (Shape.Idx.first (numel1_S1.symm ▸ Nat.one_pos)))).toNat, (0#32 : BitVec 32).toNat, (0#32 : BitVec 32).toNat] = _
  rw [wordIdx]; rfl

/-- At grid point i, table 1 holds the word of batch position `σ i`. -/
theorem tbl1_at (i : grid0.Coords) : (tbl m 1 (Shape.Idx.ofFin (i 0))).toNat = (σ m (i 0)).val := tbl1_toNat m (i 0)

/-- THE SIDE CONDITION: every table-indexed block lies inside its array, for every launch memory. -/
theorem ok : Ok m := by
  have h1 : ∀ i : grid0.Coords, (tbl m 1 (Shape.Idx.ofFin (i 0))).toNat < 32 := fun i => by
    have e := tbl1_at m i
    have l := (σ m (i 0)).isLt
    omega
  have h0 : ∀ i : grid0.Coords, (tbl m 0 (Shape.Idx.ofFin (i 0))).toNat < 64 := fun i => tbl0_lt m (i 0)
  refine ⟨fun i => ⟨fun a => ?_, Or.inl rfl⟩, fun i => ⟨fun a => ?_, Or.inl rfl⟩, fun i => ⟨fun a => ?_, Or.inl rfl⟩,
    fun i => ⟨fun a => ?_, Or.inl rfl⟩⟩
  · rw [map_x]; have := h1 i
    fin_cases a <;> simp [S1x512x1024, S32x512x1024] <;> omega
  · rw [map_w]; have := h0 i
    fin_cases a <;> simp [S1x512x512, S64x512x512] <;> omega
  · rw [map_b]; have := h0 i
    fin_cases a <;> simp [S1x512x1, S64x512x1] <;> omega
  · rw [map_o]; have := h1 i
    fin_cases a <;> simp [S1x512x1024, S32x512x1024] <;> omega

end Cert.KernelIdeal.Tables

end
-- ==== Proof.BodyValue.lean ====
/-
  What one grid point computes: the block the kernel body leaves in the output's staging buffer.

  The body loads the point's x block (512 x 1024), weight block (512 x 512) and bias column (512 x 1), multiplies
  the weight block, contracted over its FIRST axis, with the x block, contracted over its first axis too, into a
  zero accumulator, adds the bias column along every row, and stores the result over the whole output block. Its
  one store covers the block, so the block ends holding the store's payload; and at the ideal instance, where a
  change of float format is the identity and the matrix unit's product into a zero accumulator is the plain sum,
  entry (d, t) of that payload is   sum over c of w[c, d] * x[c, t]   plus   bias[d].
-/
import proofs.«416088_j31937376813637_2_alg».proof.Proof.Gen.KernelIdeal.Frame
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.Body

open Cert.KernelIdeal Cert.KernelIdeal.Gen
open Idealize.ShloMosaic Idealize.ShloMosaic.TcCoe Idealize.SL.Sem Idealize.ShloMosaic.ValueIdx

/-- The body's loads and its store all start at the block's origin. -/
theorem origin3 : (![0, 0, 0] : Fin 3 → Nat) = fun _ => 0 := by
  funext a; fin_cases a <;> rfl

section AnyInstance

variable {F : FTy → Type} [FloatOps F]

/-- The output block after the body is the payload of its one store, a function of the three loaded blocks. -/
theorem block_eq_payload (c : Dev nD) (i : grid0.Coords) (arg3 : Memref sig .tc .vmem S1x512x1024 .f32) (harg3 : arg3.IsWhole)
    (arg4 : Memref sig .tc .vmem S1x512x512 .f32) (harg4 : arg4.IsWhole) (arg5 : Memref sig .tc .vmem S1x512x1 .f32) (harg5 : arg5.IsWhole)
    (arg6 : Memref sig .tc .vmem S1x512x1024 .f32) (harg6 : arg6.IsWhole)
    (x0 : Vec F S1x512x1024 .f32) (x1 : Vec F S1x512x512 .f32) (x2 : Vec F S1x512x1 .f32)
    (xt0 : TbBuf0 (F := F) c tbM0_0) (xt1 : TbBuf0 (F := F) c tbM0_1) :
    out0_A_3 c i arg3 harg3 arg4 harg4 arg5 harg5 arg6 harg6 x0 x1 x2 xt0 xt1 = k0_pay1 x0 x1 x2 := by
  unfold out0_A_3
  rw [View.read_writes_eq_canon _ _ _ (cover0_A_3 c i arg3 harg3 arg4 harg4 arg5 harg5 arg6 harg6 x0 x1 x2 xt0 xt1)]
  unfold kernelRun0_A
  dsimp only
  sl_unfold_words
  rw [View.canon_unit_zero origin3]
  simp only [View.readAt_eq_ld, Memref.IsWhole.read_unread, View.ld_unit_zero (S := S1x512x1024) origin3,
    View.ld_unit_zero (S := S1x512x512) origin3, View.ld_unit_zero (S := S1x512x1) origin3]

end AnyInstance

/-! ## The payload at an entry, at the ideal instance -/

/-- The weight block's index under the product: the contracted coordinate on its first axis … -/
theorem wIdx_0 (j : S512x1024.Idx) (q : dot_S512x512_S512x1024_S512x1024_0_0_1_1_n_n.contr.Idx) :
    (dot_S512x512_S512x1024_S512x1024_0_0_1_1_n_n.lhsIdx j q 0).val = (q ⟨0, by decide⟩).val :=
  dot_S512x512_S512x1024_S512x1024_0_0_1_1_n_n.lhsIdx_val_of_single rfl j q
/-- … and the result's row on its second; -/
theorem wIdx_1 (j : S512x1024.Idx) (q : dot_S512x512_S512x1024_S512x1024_0_0_1_1_n_n.contr.Idx) :
    (dot_S512x512_S512x1024_S512x1024_0_0_1_1_n_n.lhsIdx j q 1).val = (j 0).val := by
  unfold DotDims.lhsIdx
  rw [dif_neg (show ¬(1 : Fin S512x512.rank) ∈ dot_S512x512_S512x1024_S512x1024_0_0_1_1_n_n.lhsBatch by decide),
    dif_pos (show (1 : Fin S512x512.rank) ∈ dot_S512x512_S512x1024_S512x1024_0_0_1_1_n_n.lhsNonContracting by decide)]
  rfl
/-- the x block's: the contracted coordinate on its first axis … -/
theorem xIdx_0 (j : S512x1024.Idx) (q : dot_S512x512_S512x1024_S512x1024_0_0_1_1_n_n.contr.Idx) :
    (dot_S512x512_S512x1024_S512x1024_0_0_1_1_n_n.rhsIdx j q 0).val = (q ⟨0, by decide⟩).val :=
  dot_S512x512_S512x1024_S512x1024_0_0_1_1_n_n.rhsIdx_val_of_single rfl j q
/-- … and the result's column on its second. -/
theorem xIdx_1 (j : S512x1024.Idx) (q : dot_S512x512_S512x1024_S512x1024_0_0_1_1_n_n.contr.Idx) :
    (dot_S512x512_S512x1024_S512x1024_0_0_1_1_n_n.rhsIdx j q 1).val = (j 1).val := by
  unfold DotDims.rhsIdx
  rw [dif_neg (show ¬(1 : Fin S512x1024.rank) ∈ dot_S512x512_S512x1024_S512x1024_0_0_1_1_n_n.rhsBatch by decide),
    dif_pos (show (1 : Fin S512x1024.rank) ∈ dot_S512x512_S512x1024_S512x1024_0_0_1_1_n_n.rhsNonContracting by decide)]
  rfl

/-- The product into the zero accumulator, at (d, t): the sum over c of w[c, d] * x[c, t]. -/
theorem product_apply (w : FVec Ideal S512x512 .bf16) (x : FVec Ideal S512x1024 .bf16) (d : Fin 512) (t : Fin 1024) :
    matmul (F := Ideal) dot_S512x512_S512x1024_S512x1024_0_0_1_1_n_n none w x (constant (F := Ideal) S512x1024 .f32 0x00000000#32) (ix2 d t)
      = ∑ c : Fin 512, w (ix2 c d) * x (ix2 c t) := by
  show FloatOps.matmul dot_S512x512_S512x1024_S512x1024_0_0_1_1_n_n none w x (constant S512x1024 .f32 0x00000000#32) (ix2 d t) = _
  rw [Ideal.matmul_constant_zero_apply,
    ← Equiv.sum_comp (contrEquiv1 dot_S512x512_S512x1024_S512x1024_0_0_1_1_n_n 512 rfl rfl).symm]
  refine Finset.sum_congr rfl fun k _ => ?_
  have hk := contrEquiv1_symm_val dot_S512x512_S512x1024_S512x1024_0_0_1_1_n_n 512 rfl rfl k
  have el : dot_S512x512_S512x1024_S512x1024_0_0_1_1_n_n.lhsIdx (ix2 d t)
      ((contrEquiv1 dot_S512x512_S512x1024_S512x1024_0_0_1_1_n_n 512 rfl rfl).symm k) = ix2 k d := funext fun a => Fin.ext (by
    match a with
    | ⟨0, _⟩ => exact (wIdx_0 _ _).trans hk
    | ⟨1, _⟩ => exact wIdx_1 _ _)
  have er : dot_S512x512_S512x1024_S512x1024_0_0_1_1_n_n.rhsIdx (ix2 d t)
      ((contrEquiv1 dot_S512x512_S512x1024_S512x1024_0_0_1_1_n_n 512 rfl rfl).symm k) = ix2 k t := funext fun a => Fin.ext (by
    match a with
    | ⟨0, _⟩ => exact (xIdx_0 _ _).trans hk
    | ⟨1, _⟩ => exact xIdx_1 _ _)
  rw [el, er]

/-- The bias column laid along every row reads, at (d, t), the column at d. -/
theorem biasRow_apply (b : FVec Ideal S512x1 .f32) (d : Fin 512) (t : Fin 1024) :
    broadcastTo S512x1024 b broadcasts_S512x1_S512x1024 (ix2 d t) = b (ix2 d (0 : Fin 1)) :=
  broadcastTo_apply b broadcasts_S512x1_S512x1024 (ix2 d t) (ix2 d (0 : Fin 1)) (fun a => by
    match a with
    | ⟨0, _⟩ => show d.val = if (512 : Nat) = 1 then 0 else d.val; rw [if_neg (by decide)]
    | ⟨1, _⟩ => show 0 = if (1 : Nat) = 1 then 0 else t.val; rw [if_pos rfl])

/-- THE PAYLOAD AT AN ENTRY: (0, d, t) of the stored block is the contraction of the weight block's column d with the
    x block's column t, plus the bias at d. -/
theorem payload_apply (x0 : Vec Ideal S1x512x1024 .f32) (x1 : Vec Ideal S1x512x512 .f32) (x2 : Vec Ideal S1x512x1 .f32)
    (u : Fin 1) (d : Fin 512) (t : Fin 1024) :
    k0_pay1 (F := Ideal) x0 x1 x2 (ix3 u d t)
      = (∑ c : Fin 512, x1 (ix3 (0 : Fin 1) c d) * x0 (ix3 (0 : Fin 1) c t)) + x2 (ix3 (0 : Fin 1) d (0 : Fin 1)) := by
  unfold k0_pay1
  refine (shapeCast_ab_1ab_apply _ shapeCasts_S512x1024_S1x512x1024 u d t).trans ?_
  refine (addf_apply _ _ (ix2 d t)).trans ?_
  refine congrArg₂ (· + ·) ?_ ?_
  · refine (product_apply _ _ d t).trans (Finset.sum_congr rfl fun c _ => ?_)
    refine congrArg₂ (· * ·) ?_ ?_
    · exact shapeCast_1ab_ab_apply x1 shapeCasts_S1x512x512_S512x512 c d
    · exact shapeCast_1ab_ab_apply x0 shapeCasts_S1x512x1024_S512x1024 c t
  · exact (biasRow_apply _ d t).trans (shapeCast_1ab_ab_apply x2 shapeCasts_S1x512x1_S512x1 d (0 : Fin 1))

end Cert.KernelIdeal.Body

end
-- ==== Proof.Spec.lean ====
/-
  What both programs compute, as one function of the four argument arrays.

  For batch entry b the subject id s_b = subjects[b] names a row of the weight table and of the bias table:
      out[b, d, t] = (sum over c of  weights[row s_b, c, d] * x[b, c, t])  +  bias[row s_b, d],
  a sum of 512 products in the extended reals. The row of an id is its unsigned value, capped at the last
  row (63); for an id in [0, 64) that is the id itself, which is the only case the certificate uses.
-/
import Idealize.ShloMosaic.PureOps.Ideal
import Idealize.ShloMosaic.Lib.ValueIdx

noncomputable section

open scoped BigOperators

namespace Cert.Spec

open Idealize.ShloMosaic Idealize.ShloMosaic.ValueIdx

abbrev SX : Shape := ⟨3, ![32, 512, 1024]⟩
abbrev SI : Shape := ⟨1, ![32]⟩
abbrev SW : Shape := ⟨3, ![64, 512, 512]⟩
abbrev SB : Shape := ⟨2, ![64, 512]⟩

/-- The table row a subject id names: its unsigned value, capped at the last of the 64 rows. -/
def rowOf (s : BitVec 32) : Fin 64 := ⟨min s.toNat 63, by omega⟩

theorem rowOf_val_of_lt (s : BitVec 32) (h : s.toNat < 64) : (rowOf s).val = s.toNat := by
  show min s.toNat 63 = s.toNat
  omega

/-- The projected batch: entry (b, d, t) contracts row s_b of the weights with x[b] over c and adds the row's bias. -/
def projected (x : FVec Ideal SX .f32) (subjects : IVec SI 32) (weights : FVec Ideal SW .f32) (bias : FVec Ideal SB .f32) :
    FVec Ideal SX .f32 :=
  fun i => (∑ c : Fin 512, weights (ix3 (rowOf (subjects (ix1 (i 0)))) c (i 1)) * x (ix3 (i 0) c (i 2)))
    + bias (ix2 (rowOf (subjects (ix1 (i 0)))) (i 1))

end Cert.Spec

end
-- ==== Proof.KernelValue.lean ====
/-
  The array the idealized kernel leaves: the specification's projected batch.

  Grid point t handles batch position p = `σ t` (the sorted order routes it there): its x block is x[p], its weight
  block is row `table 0 [t]` of the weights and its bias block the same row of the bias column, and it writes output
  block p. On subject ids in [0, 64) that table row is the id's own row, so what point t writes back is block p of
  the specification (`flushed_eq`). The sorted order is a permutation, so the blocks written at the 32 points are the
  32 blocks of the output, each written once — the last point apart, a point's output block differs from the next
  point's, so every point writes back — and the output array ends holding the specification everywhere (`final`).
-/
import proofs.«416088_j31937376813637_2_alg».proof.Proof.IdealOk
import proofs.«416088_j31937376813637_2_alg».proof.Proof.BodyValue
import proofs.«416088_j31937376813637_2_alg».proof.Proof.Spec

set_option maxRecDepth 16384

noncomputable section

open scoped BigOperators

namespace Cert.KernelIdeal.Projected

open Cert.KernelIdeal Cert.KernelIdeal.Gen Cert.KernelIdeal.Tables
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

/-- The side condition, for this launch memory. -/
abbrev hO : Ok m := Tables.ok m

/-- The argument arrays, by their literal types. -/
abbrev xs (c : Dev nD) : FVec Ideal S32x512x1024 .f32 := m ((c : Thread nD τ).loc main_arg0)
abbrev ss (c : Dev nD) : IVec S32 32 := m ((c : Thread nD τ).loc main_arg1)
abbrev ws (c : Dev nD) : FVec Ideal S64x512x512 .f32 := m ((c : Thread nD τ).loc main_arg2)
abbrev bs (c : Dev nD) : FVec Ideal S64x512 .f32 := m ((c : Thread nD τ).loc main_arg3)

/-- The array both programs are shown to leave. -/
abbrev target (c : Dev nD) : FVec Ideal S32x512x1024 .f32 := Cert.Spec.projected (xs m c) (ss m c) (ws m c) (bs m c)

/-- The batch position grid point t handles. -/
abbrev pos (t : Fin (cfgM m (hO m)).N) : Fin 32 := σ m (grid0.coords t 0)

/-- The point's input blocks, by their literal types. -/
abbrev xblk (c : Dev nD) (t : Fin (cfgM m (hO m)).N) : Vec Ideal S1x512x1024 .f32 := iblk m (hO m) c 0 t
abbrev wblk (c : Dev nD) (t : Fin (cfgM m (hO m)).N) : Vec Ideal S1x512x512 .f32 := iblk m (hO m) c 1 t
abbrev bblk (c : Dev nD) (t : Fin (cfgM m (hO m)).N) : Vec Ideal S1x512x1 .f32 := iblk m (hO m) c 2 t

/-- A window's block index at a grid point is its index map at the point's coordinates, whatever admissible contents the
    tables hold. -/
theorem index_eq (a : (pcfg0 (F := Ideal)).Adm) (w : Fin 4) (t : Fin (cfg0 a).N) :
    ((cfg0 a).win w).index t = ix0 a.1 w (grid0.coords t) := rfl

/-- The leading coordinate inside a block of unit leading extent is 0. -/
theorem unit_val (u : Fin 1) : u.val = 0 := by omega

/-- The x block of point t is x at batch position `pos t`. -/
theorem xblk_apply (c : Dev nD) (t : Fin (cfgM m (hO m)).N) (u : Fin 1) (k : Fin 512) (q : Fin 1024) :
    xblk m c t (ix3 u k q) = xs m c (ix3 (pos m t) k q) := by
  show V m c main_arg0 ((((cfgM m (hO m)).win 0).blk t).view.emb (ix3 u k q)) = _
  rw [V_main_arg0]
  refine congrArg (xs m c) (funext fun a => Fin.ext ?_)
  have hi : ((cfgM m (hO m)).win 0).index t = ![(tbl m 1 (Shape.Idx.ofFin (grid0.coords t 0))).toNat, 0, 0] :=
    (index_eq (adm m (hO m)) 0 t).trans (map_x m (grid0.coords t))
  match a with
  | ⟨0, _⟩ =>
    refine Eq.trans ?_ (tbl1_at m (grid0.coords t))
    show ((cfgM m (hO m)).win 0).index t (0 : Fin 3) * 1 + 1 * u.val = (tbl m 1 (Shape.Idx.ofFin (grid0.coords t 0))).toNat
    rw [hi, unit_val u]
    show (tbl m 1 (Shape.Idx.ofFin (grid0.coords t 0))).toNat * 1 + 1 * 0 = _
    omega
  | ⟨1, _⟩ =>
    show ((cfgM m (hO m)).win 0).index t (1 : Fin 3) * 512 + 1 * k.val = k.val
    rw [hi]; show 0 * 512 + 1 * k.val = k.val; omega
  | ⟨2, _⟩ =>
    show ((cfgM m (hO m)).win 0).index t (2 : Fin 3) * 1024 + 1 * q.val = q.val
    rw [hi]; show 0 * 1024 + 1 * q.val = q.val; omega

/-- The table row grid point t reads the weights and the bias at. -/
abbrev row (t : Fin (cfgM m (hO m)).N) : ℕ := (tbl m 0 (Shape.Idx.ofFin (grid0.coords t 0))).toNat

theorem row_lt (t : Fin (cfgM m (hO m)).N) : row m t < 64 := tbl0_lt m _

/-- The weight block of point t is that row of the weight table. -/
theorem wblk_apply (c : Dev nD) (t : Fin (cfgM m (hO m)).N) (u : Fin 1) (k d : Fin 512) :
    wblk m c t (ix3 u k d) = ws m c (ix3 (⟨row m t, row_lt m t⟩ : Fin 64) k d) := by
  show V m c main_arg2 ((((cfgM m (hO m)).win 1).blk t).view.emb (ix3 u k d)) = _
  rw [V_main_arg2]
  refine congrArg (ws m c) (funext fun a => Fin.ext ?_)
  have hi : ((cfgM m (hO m)).win 1).index t = ![(tbl m 0 (Shape.Idx.ofFin (grid0.coords t 0))).toNat, 0, 0] :=
    (index_eq (adm m (hO m)) 1 t).trans (map_w m (grid0.coords t))
  match a with
  | ⟨0, _⟩ =>
    show ((cfgM m (hO m)).win 1).index t (0 : Fin 3) * 1 + 1 * u.val = row m t
    rw [hi, unit_val u]
    show row m t * 1 + 1 * 0 = _
    omega
  | ⟨1, _⟩ =>
    show ((cfgM m (hO m)).win 1).index t (1 : Fin 3) * 512 + 1 * k.val = k.val
    rw [hi]; show 0 * 512 + 1 * k.val = k.val; omega
  | ⟨2, _⟩ =>
    show ((cfgM m (hO m)).win 1).index t (2 : Fin 3) * 512 + 1 * d.val = d.val
    rw [hi]; show 0 * 512 + 1 * d.val = d.val; omega

/-- The bias window's array is the bias table with a trailing unit axis, as the host lays it out before the call. -/
theorem biasCol_eq (c : Dev nD) :
    (V m c main_v3 : S64x512x1.Idx → EReal) = broadcastInDim S64x512x1 ![0, 1] bcast_S64x512_S64x512x1_0_1 (bs m c) := by
  dsimp only [V]
  simp only [hostOps0, hostOps0_1, hostOps0_2, hostOps0_3, hostOps0_4, List.flatten_cons, List.flatten_nil, List.append_nil,
    List.cons_append, List.nil_append]
  after_results

/-- The bias block of point t is that row of the bias table, as a column. -/
theorem bblk_apply (c : Dev nD) (t : Fin (cfgM m (hO m)).N) (u : Fin 1) (d : Fin 512) (z : Fin 1) :
    bblk m c t (ix3 u d z) = bs m c (ix2 (⟨row m t, row_lt m t⟩ : Fin 64) d) := by
  show V m c main_v3 ((((cfgM m (hO m)).win 2).blk t).view.emb (ix3 u d z)) = _
  have hi : ((cfgM m (hO m)).win 2).index t = ![(tbl m 0 (Shape.Idx.ofFin (grid0.coords t 0))).toNat, 0, 0] :=
    (index_eq (adm m (hO m)) 2 t).trans (map_b m (grid0.coords t))
  rw [biasCol_eq]
  refine broadcastInDim_apply _ bcast_S64x512_S64x512x1_0_1 (bs m c) _ (ix2 (⟨row m t, row_lt m t⟩ : Fin 64) d) (fun a => ?_)
  match a with
  | ⟨0, _⟩ =>
    show row m t = if (64 : Nat) = 1 then 0 else ((cfgM m (hO m)).win 2).index t (0 : Fin 3) * 1 + 1 * u.val
    rw [if_neg (by decide), hi, unit_val u]
    show row m t = row m t * 1 + 1 * 0
    omega
  | ⟨1, _⟩ =>
    show d.val = if (512 : Nat) = 1 then 0 else ((cfgM m (hO m)).win 2).index t (1 : Fin 3) * 512 + 1 * d.val
    rw [if_neg (by decide), hi]; show d.val = 0 * 512 + 1 * d.val; omega

/-- A position of the 32-entry id table, written either way. -/
theorem ofFin_eq_ix1 (k : Fin 32) : (Shape.Idx.ofFin k : S32.Idx) = ix1 k := by
  funext a; match a with | ⟨0, _⟩ => rfl

/-- On ids in [0, 64) the row point t reads is the row of the id at batch position `pos t`. -/
theorem row_eq (hids : ∀ j, (ids m j).toNat < 64) (t : Fin (cfgM m (hO m)).N) :
    (⟨row m t, row_lt m t⟩ : Fin 64) = Cert.Spec.rowOf (ids m (ix1 (pos m t))) := by
  apply Fin.ext
  have e : tbl m 0 (Shape.Idx.ofFin (grid0.coords t 0)) = Cert.Words.clip63 (ids m (Shape.Idx.ofFin (pos m t))) :=
    tbl0_apply m (grid0.coords t 0)
  show (tbl m 0 (Shape.Idx.ofFin (grid0.coords t 0))).toNat = (Cert.Spec.rowOf (ids m (ix1 (pos m t)))).val
  rw [e, Cert.Words.clip63_of_lt _ (hids _), Cert.Spec.rowOf_val_of_lt _ (hids _), ofFin_eq_ix1]

/-- WHAT POINT t LEAVES in the output's staging buffer: block `pos t` of the specification. -/
theorem block_value (hids : ∀ j, (ids m j).toNat < 64) (c : Dev nD) (t : Fin (cfgM m (hO m)).N) :
    outsAt0 m (hO m) c t = fun y : S1x512x1024.Idx => target m c (ix3 (pos m t) (y 1) (y 2)) := by
  obtain rfl : c = 0 := Subsingleton.elim _ _
  unfold outsAt0
  refine (Body.block_eq_payload (F := Ideal) 0 (grid0.coords t) (ms0_0 m (hO m) t) (hs0_0 m (hO m) t) (ms0_1 m (hO m) t)
    (hs0_1 m (hO m) t) (ms0_2 m (hO m) t) (hs0_2 m (hO m) t) (ms0_3 m (hO m) t) (hs0_3 m (hO m) t)
    (xblk m 0 t) (wblk m 0 t) (bblk m 0 t) (tbl m 0) (tbl m 1)).trans ?_
  funext y
  obtain ⟨u, d, q, rfl⟩ : ∃ (u : Fin 1) (d : Fin 512) (q : Fin 1024), y = ix3 u d q := ⟨y 0, y 1, y 2, eq_ix3 y⟩
  refine (Body.payload_apply (xblk m 0 t) (wblk m 0 t) (bblk m 0 t) u d q).trans ?_
  show _ = (∑ k : Fin 512, ws m 0 (ix3 (Cert.Spec.rowOf (ss m 0 (ix1 (pos m t)))) k d) * xs m 0 (ix3 (pos m t) k q))
    + bs m 0 (ix2 (Cert.Spec.rowOf (ss m 0 (ix1 (pos m t)))) d)
  have hr := row_eq m hids t
  refine congrArg₂ (· + ·) (Finset.sum_congr rfl fun k _ => ?_) ?_
  · rw [wblk_apply, xblk_apply, hr]
  · rw [bblk_apply, hr]

/-- The output's leading block index at point t is the batch position the point handles. -/
theorem outIndex (t : Fin (cfgM m (hO m)).N) :
    ((cfgM m (hO m)).win 3).index t = ![(pos m t).val, 0, 0] := by
  have hi : ((cfgM m (hO m)).win 3).index t = ![(tbl m 1 (Shape.Idx.ofFin (grid0.coords t 0))).toNat, 0, 0] :=
    (index_eq (adm m (hO m)) 3 t).trans (map_o m (grid0.coords t))
  rw [hi, tbl1_at m (grid0.coords t)]

/-- WHAT POINT t WRITES BACK is block t of the specification. -/
theorem flushed_eq (hids : ∀ j, (ids m j).toNat < 64) (c : Dev nD) (t : Fin (cfgM m (hO m)).N) :
    (dats m (hO m) 0 c).flushed 3 t = (((cfgM m (hO m)).win 3).blk t).view.read (Elt Ideal) (target m c) := by
  show ((cfgM m (hO m)).win 3).cut (grid0.coords t) ((dats m (hO m) 0 c).after 3 t) = _
  rw [after0_3, block_value m hids c t]
  show (fun y : S1x512x1024.Idx => target m c (ix3 (pos m t) (y 1) (y 2)))
    = fun y : S1x512x1024.Idx => target m c ((((cfgM m (hO m)).win 3).blk t).view.emb y)
  funext y
  refine congrArg (target m c) (funext fun a => Fin.ext ?_)
  have hi := outIndex m t
  match a with
  | ⟨0, _⟩ =>
    show (pos m t).val = ((cfgM m (hO m)).win 3).index t (0 : Fin 3) * 1 + 1 * (y 0).val
    have h0 : (y 0).val < 1 := (y 0).isLt
    rw [hi]; show (pos m t).val = (pos m t).val * 1 + 1 * (y 0).val; omega
  | ⟨1, _⟩ =>
    show (y 1).val = ((cfgM m (hO m)).win 3).index t (1 : Fin 3) * 512 + 1 * (y 1).val
    rw [hi]; show (y 1).val = 0 * 512 + 1 * (y 1).val; omega
  | ⟨2, _⟩ =>
    show (y 2).val = ((cfgM m (hO m)).win 3).index t (2 : Fin 3) * 1024 + 1 * (y 2).val
    rw [hi]; show (y 2).val = 0 * 1024 + 1 * (y 2).val; omega

/-- The grid has 32 points, and point t's one coordinate is t. -/
theorem coords_val (t : Fin (cfgM m (hO m)).N) : (grid0.coords t 0).val = t.val := by
  have hN : (cfgM m (hO m)).N = 32 := N_0
  have ht := t.isLt
  show t.val / grid0.stride 0 % grid0.bound 0 = t.val
  have hs : grid0.stride 0 = 1 := by decide
  have hb : grid0.bound 0 = 32 := by decide
  rw [hs, hb]; omega

/-- Distinct points handle distinct batch positions. -/
theorem pos_injective : Function.Injective (pos m) := fun t t' h => by
  have e := σ_injective m h
  have := congrArg Fin.val e
  rw [coords_val, coords_val] at this
  exact Fin.ext this

/-- Every point writes its output block back: the next point's block is another one. -/
theorem flush_all (t : Fin (cfgM m (hO m)).N) : ((cfgM m (hO m)).win 3).flush t = true := by
  have hN : (cfgM m (hO m)).N = 32 := N_0
  have ht : t.val < 32 := by have h := t.isLt; omega
  show (true && (decide (t.val + 1 = 32) || decide (∃ h : t.val + 1 < 32,
    ((cfgM m (hO m)).win 3).index ⟨t.val + 1, h⟩ ≠ ((cfgM m (hO m)).win 3).index t))) = true
  rw [Bool.true_and, Bool.or_eq_true, decide_eq_true_eq, decide_eq_true_eq]
  by_cases hl : t.val + 1 = 32
  · exact Or.inl hl
  · refine Or.inr ⟨by omega, fun he => ?_⟩
    rw [outIndex, outIndex] at he
    have e1 : (pos m ⟨t.val + 1, by omega⟩).val = (pos m t).val := congrFun he (0 : Fin 3)
    have := congrArg Fin.val (pos_injective m (Fin.ext e1))
    simp only at this
    omega

/-- Every entry of the output lies in the block some point writes back: entry (b, d, q) is entry (0, d, q) of the block
    of the point that handles batch position b. -/
theorem cover (i : S32x512x1024.Idx) :
    ∃ t : Fin (cfgM m (hO m)).N, ((cfgM m (hO m)).win 3).flush t = true ∧ i ∈ (((cfgM m (hO m)).win 3).blk t).view.set := by
  obtain ⟨k, hk⟩ := σ_surjective m (i 0)
  have hN : (cfgM m (hO m)).N = 32 := N_0
  have hkN : k.val < (cfgM m (hO m)).N := by rw [hN]; exact k.isLt
  refine ⟨⟨k.val, hkN⟩, flush_all m _, ?_⟩
  have hp : pos m ⟨k.val, hkN⟩ = i 0 := by
    rw [← hk]
    exact congrArg (σ m) (Fin.ext (coords_val m _))
  have hi := outIndex m ⟨k.val, hkN⟩
  have he : (((cfgM m (hO m)).win 3).blk ⟨k.val, hkN⟩).view.emb (ix3 (0 : Fin 1) (i 1) (i 2)) = i :=
    funext fun a => Fin.ext (by
      match a with
      | ⟨0, _⟩ =>
        show ((cfgM m (hO m)).win 3).index ⟨k.val, hkN⟩ (0 : Fin 3) * 1 + 1 * 0 = (i 0).val
        rw [hi, ← hp]; show (pos m ⟨k.val, hkN⟩).val * 1 + 1 * 0 = _; omega
      | ⟨1, _⟩ =>
        show ((cfgM m (hO m)).win 3).index ⟨k.val, hkN⟩ (1 : Fin 3) * 512 + 1 * (i 1).val = (i 1).val
        rw [hi]; show 0 * 512 + 1 * (i 1).val = (i 1).val; omega
      | ⟨2, _⟩ =>
        show ((cfgM m (hO m)).win 3).index ⟨k.val, hkN⟩ (2 : Fin 3) * 1024 + 1 * (i 2).val = (i 2).val
        rw [hi]; show 0 * 1024 + 1 * (i 2).val = (i 2).val; omega)
  have hm := (((cfgM m (hO m)).win 3).blk ⟨k.val, hkN⟩).view.emb_mem_set (ix3 (0 : Fin 1) (i 1) (i 2))
  rw [he] at hm
  exact hm

/-- THE OUTPUT ARRAY after the run is the specification's projected batch. -/
theorem final (hids : ∀ j, (ids m j).toNat < 64) (c : Dev nD) :
    (dats m (hO m) 0 c).arrAt 3 (cfgM m (hO m)).N = target m c :=
  (dats m (hO m) 0 c).arrAt_eq_of_cover 3 (target m c) (fun t _ => flushed_eq m hids c t) (cover m)

/-- THE KERNEL'S RUN with its result named: every weakly fair execution terminates with the output at the specification
    and the four arguments unchanged. -/
theorem run (hids : ∀ j, (ids m j).toNat < 64) :
    θ_run defs (onTc (τ := τ) (main (F := Ideal))) ⟨m, fun _ => 0, ρ⟩ fun r => ∀ c : Dev nD,
      r.2.mem ((c.tc : Thread nD τ).loc main_v4) = target m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => ⟨((h c).1 3).trans (final m hids c),
      ((h c).1 0).trans (((dats m (hO m) 0 c).arrAt_in 0 rfl _).trans ((A_eq m (hO m) c 0).trans (V_main_arg0 m c))),
      ((h c).2 main_arg1 (by decide : main_arg1 ∈ Pipeline.restRefs sig spec0)).trans (V_main_arg1 m c),
      ((h c).1 1).trans (((dats m (hO m) 0 c).arrAt_in 1 rfl _).trans ((A_eq m (hO m) c 1).trans (V_main_arg2 m c))),
      ((h c).2 main_arg3 (by decide : main_arg3 ∈ Pipeline.restRefs sig spec0)).trans (V_main_arg3 m c)⟩)
    (run_main m ρ (hO m))

end Cert.KernelIdeal.Projected

end
-- ==== Proof.RefSide.lean ====
/-
  The reference's value: jnp's `weights[subjects]`, `bias[subjects]` and the batched contraction, read entry by entry.

  A gather of table rows reads, for batch entry b, the row named by the start index at (b, 0): that word read as a
  signed number and clamped into the table. The start indices are the subject ids with 64 added to the negative ones.
  On ids in [0, 64) nothing is added, the signed value is the unsigned one and the clamp leaves it: the row is the id's
  own (`Spec.rowOf`). The batched product contracts the gathered weight rows with x over the shared axis, and the
  gathered bias row is laid along the last axis and added: entry (b, d, t) is the specification's.
-/
import proofs.«416088_j31937376813637_2_alg».proof.Defs
import proofs.«416088_j31937376813637_2_alg».proof.Proof.Gen.ReferenceIdeal.Run
import proofs.«416088_j31937376813637_2_alg».proof.Proof.Gen.ReferenceIdeal.Read
import proofs.«416088_j31937376813637_2_alg».proof.Proof.Spec
import proofs.«416088_j31937376813637_2_alg».proof.Proof.Words
import Idealize.ShloMosaic.Lib.StableHlo.Predicate

set_option maxRecDepth 16384

noncomputable section

open scoped BigOperators

namespace Cert.ReferenceIdeal.RefValue

open Cert.ReferenceIdeal Cert.ReferenceIdeal.Gen Cert.ReferenceIdeal.Read
open Idealize.ShloMosaic Idealize.ShloMosaic.ValueIdx Idealize.ShloMosaic.StableHlo.Predicate

/-! ## The two row gathers -/

/-- Where the weight gather finds the start index of result entry j: at (j's batch entry, 0). -/
theorem weightStart (b : Fin 32) (c d : Fin 512) :
    gather_S64x512x512_S32x1_S32x512x512_12_0_n_n_0_1_1512512.siIdx (ix3 b c d) ⟨0, by decide⟩ = ixP b := by
  funext k; fin_cases k <;> rfl

/-- The weight gather at (b, c, d): row (start word of b, signed, clamped to 63), entry (c, d). -/
theorem weightGather_apply {α : Type} (w : S64x512x512.Idx → α) (idx : IVec S32x1 32) (b : Fin 32) (c d : Fin 512) :
    Host.gather gather_S64x512x512_S32x1_S32x512x512_12_0_n_n_0_1_1512512 w idx (ix3 b c d)
      = w (ix3 (⟨min (idx (ixP b)).toInt.toNat 63, by omega⟩ : Fin 64) c d) := by
  unfold Host.gather
  congr 1
  funext a
  apply Fin.ext
  fin_cases a <;>
    simp [GatherDims.operandIdx, GatherDims.start, GatherDims.offCoord, GatherDims.batchCoord,
      gather_S64x512x512_S32x1_S32x512x512_12_0_n_n_0_1_1512512, GatherDims.sKept, Shape.kept]
  · exact congrArg (fun k => min (idx k).toInt.toNat 63) (weightStart b c d)
  · rfl
  · rfl

/-- Where the bias gather finds the start index of result entry j: at (j's batch entry, 0). -/
theorem biasStart (b : Fin 32) (d : Fin 512) :
    gather_S64x512_S32x1_S32x512_1_0_n_n_0_1_1512.siIdx (ix2 b d) ⟨0, by decide⟩ = ixP b := by
  funext k; fin_cases k <;> rfl

/-- The bias gather at (b, d): row (start word of b, signed, clamped to 63), entry d. -/
theorem biasGather_apply {α : Type} (v : S64x512.Idx → α) (idx : IVec S32x1 32) (b : Fin 32) (d : Fin 512) :
    Host.gather gather_S64x512_S32x1_S32x512_1_0_n_n_0_1_1512 v idx (ix2 b d)
      = v (ix2 (⟨min (idx (ixP b)).toInt.toNat 63, by omega⟩ : Fin 64) d) := by
  unfold Host.gather
  congr 1
  funext a
  apply Fin.ext
  fin_cases a <;>
    simp [GatherDims.operandIdx, GatherDims.start, GatherDims.offCoord, GatherDims.batchCoord,
      gather_S64x512_S32x1_S32x512_1_0_n_n_0_1_1512, GatherDims.sKept, Shape.kept]
  · exact congrArg (fun k => min (idx k).toInt.toNat 63) (biasStart b d)
  · rfl

/-! ## The start indices on ids in range -/

/-- The row the gathers read for batch entry b, when the id of b lies in [0, 64): the id's own row. -/
theorem startRow (x1 : IVec S32 32) (b : Fin 32) (hb : (x1 (ix1 b)).toNat < 64) :
    (⟨min (val_main_v5 (F := Ideal) x1 (ixP b)).toInt.toNat 63, by omega⟩ : Fin 64) = Cert.Spec.rowOf (x1 (ix1 b)) := by
  apply Fin.ext
  show min (val_main_v5 (F := Ideal) x1 (ixP b)).toInt.toNat 63 = min (x1 (ix1 b)).toNat 63
  have e : val_main_v5 (F := Ideal) x1 (ixP b) = x1 (ix1 b) := by
    rw [val_main_v5_apply, val_main_v4_apply, val_main_v1_apply, val_main_v3_apply, val_main_v0_apply, val_main_v2_apply,
      val_main_c_apply, val_main_c_0_apply]
    have ei : idx_main_v5 (ixP b) = ix1 b := by funext a; match a with | ⟨0, _⟩ => rfl
    rw [ei]
    exact Cert.Words.wrap_of_lt _ hb
  rw [e, Cert.Words.toInt_toNat_of_lt _ hb]

/-- The second gather's start indices are the same words. -/
theorem v13_eq_v5 (x1 : IVec S32 32) : val_main_v13 (F := Ideal) x1 = val_main_v5 (F := Ideal) x1 := rfl

/-! ## The reference is the specification -/

/-- THE REFERENCE'S RESULT, on ids in [0, 64), is the projected batch of the specification. -/
theorem reference_eq (x0 : FVec Ideal S32x512x1024 .f32) (x1 : IVec S32 32) (x2 : FVec Ideal S64x512x512 .f32)
    (x3 : FVec Ideal S64x512 .f32) (hx1 : ∀ j, (x1 j).toNat < 64) :
    val_main_v17 (F := Ideal) x0 x1 x2 x3 = Cert.Spec.projected x0 x1 x2 x3 := by
  funext i
  obtain ⟨b, d, t, rfl⟩ : ∃ (b : Fin 32) (d : Fin 512) (t : Fin 1024), i = ix3 b d t := ⟨i 0, i 1, i 2, eq_ix3 i⟩
  have hb := hx1 (ix1 b)
  rw [val_main_v17_apply, val_main_v7_apply, val_main_v16_apply, val_main_v15_apply]
  show (∑ k : Fin 512, val_main_v6 (F := Ideal) x1 x2 (lidx_main_v7 (ix3 b d t) k) * x0 (ridx_main_v7 (ix3 b d t) k))
      + val_main_v14 (F := Ideal) x1 x3 (idx_main_v15 (idx_main_v16 (ix3 b d t))) = _
  have el : ∀ k : Fin 512, lidx_main_v7 (ix3 b d t) k = ix3 b k d := fun k => funext fun a => by
    match a with | ⟨0, _⟩ => rfl | ⟨1, _⟩ => rfl | ⟨2, _⟩ => rfl
  have er : ∀ k : Fin 512, ridx_main_v7 (ix3 b d t) k = ix3 b k t := fun k => funext fun a => by
    match a with | ⟨0, _⟩ => rfl | ⟨1, _⟩ => rfl | ⟨2, _⟩ => rfl
  have eb : idx_main_v15 (idx_main_v16 (ix3 b d t)) = ix2 b d := funext fun a => by
    match a with | ⟨0, _⟩ => rfl | ⟨1, _⟩ => rfl
  rw [eb]
  unfold Cert.Spec.projected
  refine congrArg₂ (· + ·) (Finset.sum_congr rfl fun k _ => ?_) ?_
  · rw [el k, er k]
    refine congrArg (· * x0 (ix3 b k t)) ?_
    unfold val_main_v6
    rw [weightGather_apply, startRow x1 b hb]
  · unfold val_main_v14
    rw [biasGather_apply, v13_eq_v5, startRow x1 b hb]

end Cert.ReferenceIdeal.RefValue

end
-- ==== Proof.PreIds.lean ====
/-
  What the precondition says of the subject ids: every one of the 32 lies in [0, 64).

  The precondition is a conjunction of five `all`-reductions; the last two are "every id is at least 0" and
  "every id is below 64" as signed comparisons. A reduction by `and` that comes out 1 met a 1 at every entry, and
  a word that is at least 0 and below 64 as a signed number is below 64 as an unsigned one.
-/
import proofs.«416088_j31937376813637_2_alg».proof.Defs
import proofs.«416088_j31937376813637_2_alg».proof.Proof.Words
import Idealize.ShloMosaic.Lib.ReduceAll

namespace Cert.PreIds

open Idealize.ShloMosaic

instance : Subsingleton Cert.Pre_finite_inputs.S_.Idx := ⟨fun a b => funext fun d => d.elim0⟩

/-- The scalar shape's one index. -/
abbrev i0 : Cert.Pre_finite_inputs.S_.Idx := fun a => a.elim0

variable {F : FTy → Type} [FloatOps F] [Cert.Pre_finite_inputs.Facts]

/-- Under the precondition every subject id is below 64 as an unsigned word. -/
theorem ids_lt (a0 : FVec F Cert.Pre_finite_inputs.S32x512x1024 .f32) (a1 : IVec Cert.Pre_finite_inputs.S32 32)
    (a2 : FVec F Cert.Pre_finite_inputs.S64x512x512 .f32) (a3 : FVec F Cert.Pre_finite_inputs.S64x512 .f32)
    (h : Cert.Pre_finite_inputs.fn (F := F) a0 a1 a2 a3 = fun _ => 1#1) (j : Cert.Pre_finite_inputs.S32.Idx) :
    (a1 j).toNat < 64 := by
  have e := congrFun h i0
  unfold Cert.Pre_finite_inputs.fn Cert.Pre_finite_inputs.fn_part1 at e
  dsimp only at e
  obtain ⟨e1, hlt⟩ := IntOp.andi_eq_one.1 e
  obtain ⟨_, hge⟩ := IntOp.andi_eq_one.1 e1
  exact Cert.Words.toNat_lt_of_signed (a1 j) (Host.reduce_andi_all _ _ _ _ i0 hge j) (Host.reduce_andi_all _ _ _ _ i0 hlt j)

end Cert.PreIds
-- ==== Proof.lean ====
/-
  The certificate: the grouped projection kernel against its jnp reference, on subject ids in [0, 64).

  For each batch entry b the kernel and the reference both contract row s_b of the weight table with x[b] and add row
  s_b of the bias (`Spec.projected`). The kernel clamps the ids into [0, 63], sorts the batch by clamped id and runs
  one grid point per batch entry in sorted order, reading its blocks through the sorted tables; the reference gathers
  the rows directly, adding 64 to negative ids. On ids in [0, 64) — the precondition — the clamp and the wrap are both
  the identity and the two name the same rows; the sort is a permutation, so every batch entry is written exactly
  once. The sum over the contracted axis is the same sum of the same products on both sides, so no law of the
  extended reals beyond that is used.

  The frames: the kernel's index maps read tables that its own clamp and sort produce, so every block lies inside its
  array whatever the launch memory holds (`Tables.ok`), and the generated frame applies; the reference's frame is its
  generated run with the result dropped. No operation was rewritten by the idealization, so `preserves` is trivial.
-/
import proofs.«416088_j31937376813637_2_alg».proof.Defs
import proofs.«416088_j31937376813637_2_alg».proof.Proof.Gen.Kernel
import proofs.«416088_j31937376813637_2_alg».proof.Proof.Gen.Kernel.Skeleton
import proofs.«416088_j31937376813637_2_alg».proof.Proof.Gen.Kernel.Launch
import proofs.«416088_j31937376813637_2_alg».proof.Proof.Gen.Kernel.Points
import proofs.«416088_j31937376813637_2_alg».proof.Proof.Gen.Kernel.Frame
import proofs.«416088_j31937376813637_2_alg».proof.Proof.Gen.KernelIdeal
import proofs.«416088_j31937376813637_2_alg».proof.Proof.Gen.KernelIdeal.Skeleton
import proofs.«416088_j31937376813637_2_alg».proof.Proof.Gen.KernelIdeal.Launch
import proofs.«416088_j31937376813637_2_alg».proof.Proof.Gen.KernelIdeal.Points
import proofs.«416088_j31937376813637_2_alg».proof.Proof.Gen.KernelIdeal.Frame
import proofs.«416088_j31937376813637_2_alg».proof.Proof.Gen.ReferenceIdeal
import proofs.«416088_j31937376813637_2_alg».proof.Proof.Gen.ReferenceIdeal.Run
import proofs.«416088_j31937376813637_2_alg».proof.Proof.Gen.ReferenceIdeal.Read
import proofs.«416088_j31937376813637_2_alg».proof.Proof.Gen.Pre_finite_inputs
import proofs.«416088_j31937376813637_2_alg».proof.Proof.BitsOk
import proofs.«416088_j31937376813637_2_alg».proof.Proof.KernelValue
import proofs.«416088_j31937376813637_2_alg».proof.Proof.RefSide
import proofs.«416088_j31937376813637_2_alg».proof.Proof.PreIds
import Idealize.ShloMosaic.Adequacy
import Idealize.ShloMosaic.Init

noncomputable section

namespace Cert.Proof

open Idealize.ShloMosaic Idealize.ShloMosaic.TcCoe Idealize.SL.Sem

/-- The word-level kernel runs and leaves its arguments alone: the generated frame, its side condition on the tables
    holding for every launch memory. -/
theorem frame_kernel : Cert.frame_Kernel := fun m ρ _ => Cert.Kernel.Gen.frame m ρ (Cert.Kernel.Tables.ok m)

/-- The same for the idealized kernel. -/
theorem frame_kernelIdeal : Cert.frame_KernelIdeal := fun m ρ _ => Cert.KernelIdeal.Gen.frame m ρ (Cert.KernelIdeal.Tables.ok m)

/-- The reference's frame is its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- From memories that agree on the arguments, with the ids in [0, 64), both programs end with the output at the
    specification's projected batch of those arguments. -/
theorem algebraic : Cert.algebraic_KernelIdeal_ReferenceIdeal := by
  intro m ρ m' ρ' hpre hagree
  have hids : ∀ j, (Cert.KernelIdeal.Tables.ids m j).toNat < 64 := fun j => Cert.PreIds.ids_lt _ _ _ _ (hpre 0) j
  refine ⟨fun c => Cert.KernelIdeal.Projected.target m c, Cert.KernelIdeal.Projected.run m ρ hids, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v17_eq, (hagree c).1, (hagree c).2.1, (hagree c).2.2.1, (hagree c).2.2.2]
  obtain rfl : c = 0 := Subsingleton.elim _ _
  exact Cert.ReferenceIdeal.RefValue.reference_eq _ _ _ _ hids

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
